-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x64x128x128 : Shape := ⟨5, ![1, 64, 64, 128, 128]⟩
abbrev S1x128x7 : Shape := ⟨3, ![1, 128, 7]⟩
abbrev S1x128x1 : Shape := ⟨3, ![1, 128, 1]⟩
abbrev S128 : Shape := ⟨1, ![128]⟩
abbrev S_ : Shape := ⟨0, ![]⟩

class Facts : Prop where
  slices_S1x128x7_S1x128x1_0_0_1 : S1x128x7.Slices ![0, 0, 1] S1x128x1
  shapeCasts_S1x128x1_S128 : S1x128x1.ShapeCasts S128
  slices_S1x128x7_S1x128x1_0_0_2 : S1x128x7.Slices ![0, 0, 2] S1x128x1
  slices_S1x128x7_S1x128x1_0_0_3 : S1x128x7.Slices ![0, 0, 3] S1x128x1
  bcast_S_S1x64x64x128x128 : S_.BroadcastsInDim S1x64x64x128x128 (![] : Fin 0 → Fin S1x64x64x128x128.rank)
  reducesTo_S1x64x64x128x128_S_d0_1_2_3_4 : S1x64x64x128x128.ReducesTo [0, 1, 2, 3, 4] S_
  h_S_ : 0 < S_.numel
  bcast_S_S128 : S_.BroadcastsInDim S128 (![] : Fin 0 → Fin S128.rank)

variable [Facts]

def fn_part1 {F : FTy → Type} [FloatOps F] (main_v3 : IVec S128 32) (main_v5 : IVec S128 32) (main_v16 : IVec S128 1) (main_v18 : IVec S128 1) : IVec S128 1 :=
  let main_v19 : IVec S128 1 := andi main_v16 main_v18
  let main_c_3 : IVec S_ 32 := constantI S_ 32 112#32
  let main_v20 : IVec S128 32 := broadcastInDim S128 ![] bcast_S_S128 main_c_3
  let main_v21 : IVec S128 1 := cmpi .sle main_v3 main_v20
  let main_v22 : IVec S128 1 := andi main_v19 main_v21
  let main_c_4 : IVec S_ 32 := constantI S_ 32 0#32
  let main_v23 : IVec S128 32 := broadcastInDim S128 ![] bcast_S_S128 main_c_4
  let main_v24 : IVec S128 1 := cmpi .sge main_v5 main_v23
  let main_v25 : IVec S128 1 := andi main_v22 main_v24
  let main_c_5 : IVec S_ 32 := constantI S_ 32 112#32
  let main_v26 : IVec S128 32 := broadcastInDim S128 ![] bcast_S_S128 main_c_5
  let main_v27 : IVec S128 1 := cmpi .sle main_v5 main_v26
  let main_v28 : IVec S128 1 := andi main_v25 main_v27
  main_v28

def fn {F : FTy → Type} [FloatOps F] (main_arg0 : FVec F S1x64x64x128x128 .f32) (main_arg1 : IVec S1x128x7 32) : IVec S128 1 :=
  let main_v0 : IVec S1x128x1 32 := (extractStridedSlice S1x128x1 ![0, 0, 1] · slices_S1x128x7_S1x128x1_0_0_1) main_arg1
  let main_v1 : IVec S128 32 := shapeCast S128 main_v0 shapeCasts_S1x128x1_S128
  let main_v2 : IVec S1x128x1 32 := (extractStridedSlice S1x128x1 ![0, 0, 2] · slices_S1x128x7_S1x128x1_0_0_2) main_arg1
  let main_v3 : IVec S128 32 := shapeCast S128 main_v2 shapeCasts_S1x128x1_S128
  let main_v4 : IVec S1x128x1 32 := (extractStridedSlice S1x128x1 ![0, 0, 3] · slices_S1x128x7_S1x128x1_0_0_3) main_arg1
  let main_v5 : IVec S128 32 := shapeCast S128 main_v4 shapeCasts_S1x128x1_S128
  let main_v6 : FVec F S1x64x64x128x128 .f32 := Host.absf main_arg0
  let main_cst : FVec F S_ .f32 := constant S_ .f32 0x7F800000#32
  let main_v7 : FVec F S1x64x64x128x128 .f32 := broadcastInDim S1x64x64x128x128 ![] bcast_S_S1x64x64x128x128 main_cst
  let main_v8 : IVec S1x64x64x128x128 1 := cmpf .olt main_v6 main_v7
  let main_c : IVec S_ 1 := constantI S_ 1 1#1
  let main_v9 : IVec S_ 1 := (fun x v => Host.reduce IntOp.andi x v reducesTo_S1x64x64x128x128_S_d0_1_2_3_4 h_S_) main_v8 main_c
  let main_c_0 : IVec S_ 32 := constantI S_ 32 0#32
  let main_v10 : IVec S128 32 := broadcastInDim S128 ![] bcast_S_S128 main_c_0
  let main_v11 : IVec S128 1 := cmpi .sge main_v1 main_v10
  let main_v12 : IVec S128 1 := broadcastInDim S128 ![] bcast_S_S128 main_v9
  let main_v13 : IVec S128 1 := andi main_v12 main_v11
  let main_c_1 : IVec S_ 32 := constantI S_ 32 56#32
  let main_v14 : IVec S128 32 := broadcastInDim S128 ![] bcast_S_S128 main_c_1
  let main_v15 : IVec S128 1 := cmpi .sle main_v1 main_v14
  let main_v16 : IVec S128 1 := andi main_v13 main_v15
  let main_c_2 : IVec S_ 32 := constantI S_ 32 0#32
  let main_v17 : IVec S128 32 := broadcastInDim S128 ![] bcast_S_S128 main_c_2
  let main_v18 : IVec S128 1 := cmpi .sge main_v3 main_v17
  fn_part1 (F := F) main_v3 main_v5 main_v16 main_v18
-- ==== Kernel.lean ====
abbrev S1x64x64x128x128 : Shape := ⟨5, ![1, 64, 64, 128, 128]⟩
abbrev S1x128x7 : Shape := ⟨3, ![1, 128, 7]⟩
abbrev S64x64x128x128 : Shape := ⟨4, ![64, 64, 128, 128]⟩
abbrev S1x128x1 : Shape := ⟨3, ![1, 128, 1]⟩
abbrev S128 : Shape := ⟨1, ![128]⟩
abbrev S128x64x4x4x4 : Shape := ⟨5, ![128, 64, 4, 4, 4]⟩
abbrev S1x64x4x4x4 : Shape := ⟨5, ![1, 64, 4, 4, 4]⟩
abbrev S64x8x16x128 : Shape := ⟨4, ![64, 8, 16, 128]⟩
abbrev S_ : Shape := ⟨0, ![]⟩
abbrev S1 : Shape := ⟨1, ![1]⟩
abbrev S64x8x16 : Shape := ⟨3, ![64, 8, 16]⟩
abbrev S64x8x16x1 : Shape := ⟨4, ![64, 8, 16, 1]⟩
abbrev S64x8x16x4 : Shape := ⟨4, ![64, 8, 16, 4]⟩
abbrev S64x8x4x4 : Shape := ⟨4, ![64, 8, 4, 4]⟩
abbrev S64x8x4 : Shape := ⟨3, ![64, 8, 4]⟩
abbrev S64x8x1x4 : Shape := ⟨4, ![64, 8, 1, 4]⟩
abbrev S64x2x4x4 : Shape := ⟨4, ![64, 2, 4, 4]⟩
abbrev S64x4x4 : Shape := ⟨3, ![64, 4, 4]⟩
abbrev S64x1x4x4 : Shape := ⟨4, ![64, 1, 4, 4]⟩
abbrev S64x4x4x4 : Shape := ⟨4, ![64, 4, 4, 4]⟩

abbrev nBuf : Space → Nat
  | .hbm => 7
  | .vmem => 3
  | .smem => 3
  | _ => 0

abbrev bufTy : (tb : Table) → Fin (tcTables nBuf tb) → BufTy
  | .hbm, ⟨0, _⟩ => ⟨S1x64x64x128x128, .f32⟩
  | .hbm, ⟨1, _⟩ => ⟨S1x128x7, .i32⟩
  | .hbm, ⟨2, _⟩ => ⟨S64x64x128x128, .f32⟩
  | .hbm, ⟨3, _⟩ => ⟨S1x128x1, .i32⟩
  | .hbm, ⟨4, _⟩ => ⟨S1x128x1, .i32⟩
  | .hbm, ⟨5, _⟩ => ⟨S1x128x1, .i32⟩
  | .hbm, ⟨6, _⟩ => ⟨S128x64x4x4x4, .f32⟩
  | .local _ .vmem, ⟨0, _⟩ => ⟨S1x64x4x4x4, .f32⟩
  | .local _ .vmem, ⟨1, _⟩ => ⟨S1x64x4x4x4, .f32⟩
  | .local _ .vmem, ⟨2, _⟩ => ⟨S64x8x16x128, .f32⟩
  | .local _ .smem, ⟨0, _⟩ => ⟨S128, .i32⟩
  | .local _ .smem, ⟨1, _⟩ => ⟨S128, .i32⟩
  | .local _ .smem, ⟨2, _⟩ => ⟨S128, .i32⟩
  | _, _ => ⟨S1x64x64x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_v5 : Ref sig .tc := ⟨.hbm, 5, rfl⟩
abbrev main_v7 : Ref sig .tc := ⟨.hbm, 6, rfl⟩
abbrev main_v2 : Ref sig .tc := ⟨.smem, 0, rfl⟩
abbrev main_v4 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

abbrev pre0 : Pipeline.Prefetch sig := ⟨3, ![main_v2.idx, main_v4.idx, main_v6.idx], fun | 0 => main_v2.names | 1 => main_v4.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) (v3 : BitVec 32) : Fin 4 → Nat :=
  let c0_i32 : BitVec 32 := 0#32
  let c0_i32_0 : BitVec 32 := 0#32
  ![0, v1.toNat, v3.toNat, 0]

def k0_chk1 (v1 : BitVec 32) (v3 : BitVec 32) : Prop :=
  (∀ a, (k0_off2 v1 v3) a + S64x8x16x128.size a ≤ S64x64x128x128.size a)
instance k0_chk1.dec : ∀ (v1 : BitVec 32) (v3 : BitVec 32), Decidable (k0_chk1 v1 v3) := fun v1 v3 => decidable_of_iff' _ (Iff.of_eq (k0_chk1.eq_1 v1 v3))
theorem k0_off2_inb : ∀ (v1 : BitVec 32) (v3 : BitVec 32) (k0_hw1 : k0_chk1 v1 v3), ∀ a, (k0_off2 v1 v3) a + S64x8x16x128.size a ≤ S64x64x128x128.size a := fun v1 v3 k0_hw1 => k0_hw1

def k0_off3 (i : grid0.Coords) : Fin 1 → Nat :=
  let arg0 : BitVec 32 := BitVec.ofNat 32 (i 0).val
  let v7 : Index := Scalar.indexCast arg0
  ![v7.toNat]
def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x64x4x4x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S1x64x64x128x128_S64x64x128x128 : S1x64x64x128x128.ShapeCasts S64x64x128x128
  slices_S1x128x7_S1x128x1_0_0_1 : S1x128x7.Slices ![0, 0, 1] S1x128x1
  shapeCasts_S1x128x1_S128 : S1x128x1.ShapeCasts S128
  slices_S1x128x7_S1x128x1_0_0_2 : S1x128x7.Slices ![0, 0, 2] S1x128x1
  slices_S1x128x7_S1x128x1_0_0_3 : S1x128x7.Slices ![0, 0, 3] S1x128x1
  numel1_S1 : S1.numel = 1
  inb_S64x8x16x128_S64x8x16x128_0_0_0_0 : ∀ a, (![0, 0, 0, 0] : Fin 4 → Nat) a + S64x8x16x128.size a ≤ S64x8x16x128.size a
  h_S64x8x16x128 : 0 < S64x8x16x128.numel
  iota_S64x8x16x128_d3_w32 : S64x8x16x128.Iotas .tc 32 [3]
  reduces_S64x8x16x128_S64x8x16 : S64x8x16x128.Reduces [3] S64x8x16
  shapeCasts_S64x8x16_S64x8x16x1 : S64x8x16.ShapeCasts S64x8x16x1
  concatenates_S64x8x16x1_S64x8x16x1_S64x8x16x1_S64x8x16x1_S64x8x16x4_d3 : Shape.Concatenates [S64x8x16x1, S64x8x16x1, S64x8x16x1, S64x8x16x1] S64x8x16x4 3
  slices_S64x8x16x4_o0_0_0_0_S64x8x4x4 : S64x8x16x4.Slices ![0, 0, 0, 0] S64x8x4x4
  reduces_S64x8x4x4_S64x8x4 : S64x8x4x4.Reduces [2] S64x8x4
  shapeCasts_S64x8x4_S64x8x1x4 : S64x8x4.ShapeCasts S64x8x1x4
  slices_S64x8x16x4_o0_0_4_0_S64x8x4x4 : S64x8x16x4.Slices ![0, 0, 4, 0] S64x8x4x4
  slices_S64x8x16x4_o0_0_8_0_S64x8x4x4 : S64x8x16x4.Slices ![0, 0, 8, 0] S64x8x4x4
  slices_S64x8x16x4_o0_0_12_0_S64x8x4x4 : S64x8x16x4.Slices ![0, 0, 12, 0] S64x8x4x4
  concatenates_S64x8x1x4_S64x8x1x4_S64x8x1x4_S64x8x1x4_S64x8x4x4_d2 : Shape.Concatenates [S64x8x1x4, S64x8x1x4, S64x8x1x4, S64x8x1x4] S64x8x4x4 2
  slices_S64x8x4x4_o0_0_0_0_S64x2x4x4 : S64x8x4x4.Slices ![0, 0, 0, 0] S64x2x4x4
  reduces_S64x2x4x4_S64x4x4 : S64x2x4x4.Reduces [1] S64x4x4
  shapeCasts_S64x4x4_S64x1x4x4 : S64x4x4.ShapeCasts S64x1x4x4
  slices_S64x8x4x4_o0_2_0_0_S64x2x4x4 : S64x8x4x4.Slices ![0, 2, 0, 0] S64x2x4x4
  slices_S64x8x4x4_o0_4_0_0_S64x2x4x4 : S64x8x4x4.Slices ![0, 4, 0, 0] S64x2x4x4
  slices_S64x8x4x4_o0_6_0_0_S64x2x4x4 : S64x8x4x4.Slices ![0, 6, 0, 0] S64x2x4x4
  concatenates_S64x1x4x4_S64x1x4x4_S64x1x4x4_S64x1x4x4_S64x4x4x4_d1 : Shape.Concatenates [S64x1x4x4, S64x1x4x4, S64x1x4x4, S64x1x4x4] S64x4x4x4 1
  inb_S1x64x4x4x4_S1x64x4x4x4_0_0_0_0_0 : ∀ a, (![0, 0, 0, 0, 0] : Fin 5 → Nat) a + S1x64x4x4x4.size a ≤ S1x64x4x4x4.size a
  h_S1x64x4x4x4 : 0 < S1x64x4x4x4.numel
  shapeCasts_S1x64x4x4x4_S64x4x4x4 : S1x64x4x4x4.ShapeCasts S64x4x4x4
  shapeCasts_S64x4x4x4_S1x64x4x4x4 : S64x4x4x4.ShapeCasts S1x64x4x4x4
  hcc0_scratch1 : 2 + S_.numel ≤ 3
  hrank0 : 0 < grid0.rank
  k0_off1_inb : ∀ i : grid0.Coords, ∀ a, (k0_off1 i) a + S1.size a ≤ S128.size a
  k0_off3_inb : ∀ i : grid0.Coords, ∀ a, (k0_off3 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x64x4x4x4.size a ≤ S128x64x4x4x4.size a
  hwx0_0 : ∀ i : grid0.Coords, EltTy.bits .f32 = 32 ∨ (Rect.block (s := S128x64x4x4x4) S1x64x4x4x4.size (cc0_transform_1 i) (hinb0_0 i)).WholeWords (EltTy.packing .f32)

variable [Facts₀]

abbrev cc0_scratch1 : DmaSems sig S_ := SemArray.consecutive 2 S_ hcc0_scratch1

abbrev spec0_0 : Pipeline.WinSpec sig grid0.rank :=
  Pipeline.WinSpec.ofSpec (Memref.whole main_v7) S1x64x4x4x4.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S1x64x64x128x128 : Shape := ⟨5, ![1, 64, 64, 128, 128]⟩
abbrev S1x128x7 : Shape := ⟨3, ![1, 128, 7]⟩
abbrev S64x64x128x128 : Shape := ⟨4, ![64, 64, 128, 128]⟩
abbrev S128x7 : Shape := ⟨2, ![128, 7]⟩
abbrev S128x1 : Shape := ⟨2, ![128, 1]⟩
abbrev S128 : Shape := ⟨1, ![128]⟩
abbrev S_ : Shape := ⟨0, ![]⟩
abbrev S128x4 : Shape := ⟨2, ![128, 4]⟩
abbrev S128x64x8x16x16 : Shape := ⟨5, ![128, 64, 8, 16, 16]⟩
abbrev S128x64x4x2x4x4x4x4 : Shape := ⟨8, ![128, 64, 4, 2, 4, 4, 4, 4]⟩
abbrev S128x64x4x4x4 : Shape := ⟨5, ![128, 64, 4, 4, 4]⟩

abbrev nBuf : Space → Nat
  | .hbm => 48
  | .vmem => 0
  | .smem => 0
  | _ => 0

abbrev bufTy : (tb : Table) → Fin (tcTables nBuf tb) → BufTy
  | .hbm, ⟨0, _⟩ => ⟨S1x64x64x128x128, .f32⟩
  | .hbm, ⟨1, _⟩ => ⟨S1x128x7, .i32⟩
  | .hbm, ⟨2, _⟩ => ⟨S64x64x128x128, .f32⟩
  | .hbm, ⟨3, _⟩ => ⟨S128x7, .i32⟩
  | .hbm, ⟨4, _⟩ => ⟨S128x1, .i32⟩
  | .hbm, ⟨5, _⟩ => ⟨S128, .i32⟩
  | .hbm, ⟨6, _⟩ => ⟨S128x1, .i32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S128x4, .i32⟩
  | .hbm, ⟨44, _⟩ => ⟨S128x64x8x16x16, .f32⟩
  | .hbm, ⟨45, _⟩ => ⟨S128x64x4x2x4x4x4x4, .f32⟩
  | .hbm, ⟨46, _⟩ => ⟨S_, .f32⟩
  | .hbm, ⟨47, _⟩ => ⟨S128x64x4x4x4, .f32⟩
  | _, _ => ⟨S1x64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_c_0 : Ref sig .tc := ⟨.hbm, 11, rfl⟩
abbrev main_v8 : Ref sig .tc := ⟨.hbm, 12, rfl⟩
abbrev main_c_1 : Ref sig .tc := ⟨.hbm, 13, rfl⟩
abbrev main_c_2 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_c_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_6 : Ref sig .tc := ⟨.hbm, 25, rfl⟩
abbrev main_v16 : Ref sig .tc := ⟨.hbm, 26, rfl⟩
abbrev main_v17 : Ref sig .tc := ⟨.hbm, 27, rfl⟩
abbrev main_c_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_8 : Ref sig .tc := ⟨.hbm, 32, rfl⟩
abbrev main_v21 : Ref sig .tc := ⟨.hbm, 33, rfl⟩
abbrev main_v22 : Ref sig .tc := ⟨.hbm, 34, rfl⟩
abbrev main_c_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  shapeCasts_S1x64x64x128x128_S64x64x128x128 : S1x64x64x128x128.ShapeCasts S64x64x128x128
  shapeCasts_S1x128x7_S128x7 : S1x128x7.ShapeCasts S128x7
  slices_S128x7_S128x1_0_1 : S128x7.Slices ![0, 1] S128x1
  shapeCasts_S128x1_S128 : S128x1.ShapeCasts S128
  slices_S128x7_S128x1_0_2 : S128x7.Slices ![0, 2] S128x1
  slices_S128x7_S128x1_0_3 : S128x7.Slices ![0, 3] S128x1
  bcast_S_S128 : S_.BroadcastsInDim S128 (![] : Fin 0 → Fin S128.rank)
  bcast_S_S128x1 : S_.BroadcastsInDim S128x1 (![] : Fin 0 → Fin S128x1.rank)
  bcast_S128_S128x1_0 : S128.BroadcastsInDim S128x1 (![0] : Fin 1 → Fin S128x1.rank)
  concatenates_S128x1_S128x1_S128x1_S128x1_S128x4_d1 : Shape.Concatenates [S128x1, S128x1, S128x1, S128x1] S128x4 1
  shapeCasts_S128x64x8x16x16_S128x64x4x2x4x4x4x4 : S128x64x8x16x16.ShapeCasts S128x64x4x2x4x4x4x4
  reducesTo_S128x64x4x2x4x4x4x4_S128x64x4x4x4_d3_5_7 : S128x64x4x2x4x4x4x4.ReducesTo [3, 5, 7] S128x64x4x4x4
  h_S_ : 0 < S_.numel
  gather_S64x64x128x128_S128x4_S128x64x8x16x16_1234_n_n_n_0123_1_6481616_wf : GatherDims.WF S64x64x128x128 S128x4 S128x64x8x16x16 [1, 2, 3, 4] [] [] [0, 1, 2, 3] [] 1 ![64, 8, 16, 16]

variable [Facts₀]

def gather_S64x64x128x128_S128x4_S128x64x8x16x16_1234_n_n_n_0123_1_6481616 : GatherDims S64x64x128x128 S128x4 S128x64x8x16x16 where
  offsetDims := [1, 2, 3, 4]
  collapsedSliceDims := []
  operandBatchingDims := []
  startIndicesBatchingDims := []
  startIndexMap := [0, 1, 2, 3]
  indexVectorDim := 1
  sliceSizes := ![64, 8, 16, 16]
  wf := gather_S64x64x128x128_S128x4_S128x64x8x16x16_1234_n_n_n_0123_1_6481616_wf

class Facts : Prop extends Facts₀ where

variable [Facts]
-- ==== Proof.Spec.lean ====
/-
  The pooled value, stated once as a function of the two argument arrays.

  The feature array has shape [1, 64, 64, 128, 128] (batch, channel, depth, height, width); row r of the region table
  [1, 128, 7] carries, in its columns 1, 2, 3, the depth, height and width at which region r starts. Region r's crop has
  extent 8 x 16 x 16 and is cut into 4 x 4 x 4 windows of extent 2 x 4 x 4; entry (r, c, od, oh, ow) of the result is the
  largest of the 32 feature values of channel c in window (od, oh, ow) of region r's crop.

  Positions are read modulo the axis extents, so the function is total; when the start offsets leave room for the crop
  (depth start at most 56, height and width starts at most 112) no position wraps.

  A maximum over a finite window is the least upper bound of its entries: an extended real bounds the pooled entry exactly
  when it bounds each of the 32 values (`pooledAt_le_iff`). That is the form in which both programs are compared with it.
-/
import Idealize.ShloMosaic.PureOps.Ideal
import Idealize.ShloMosaic.Lib.ValueIdx

noncomputable section

namespace Cert.RoiPool

open Idealize.ShloMosaic Idealize.ShloMosaic.ValueIdx

abbrev SFeat : Shape := ⟨5, ![1, 64, 64, 128, 128]⟩
abbrev SRoi : Shape := ⟨3, ![1, 128, 7]⟩
abbrev SOut : Shape := ⟨5, ![128, 64, 4, 4, 4]⟩

/-- Column k of row r of the region table, as a natural number. -/
def start (roi : IVec SRoi 32) (r : Fin 128) (k : Fin 7) : ℕ := (roi (ix3 (0 : Fin 1) r k)).toNat

/-- The feature value of channel c at depth d, height h, width w (each read modulo its extent). -/
def featAt (x : FVec Ideal SFeat .f32) (c : Fin 64) (d h w : ℕ) : EReal :=
  x (ix5 (0 : Fin 1) c ⟨d % 64, Nat.mod_lt _ (by decide)⟩ ⟨h % 128, Nat.mod_lt _ (by decide)⟩ ⟨w % 128, Nat.mod_lt _ (by decide)⟩)

/-- Entry (r, c, od, oh, ow) of the pooled result: the largest feature value of channel c over window (od, oh, ow) of
    region r's crop. -/
def pooledAt (x : FVec Ideal SFeat .f32) (roi : IVec SRoi 32) (r : Fin 128) (c : Fin 64) (od oh ow : Fin 4) : EReal :=
  Finset.univ.sup fun dd : Fin 2 => Finset.univ.sup fun hh : Fin 4 => Finset.univ.sup fun ww : Fin 4 =>
    featAt x c (start roi r 1 + 2 * od.val + dd.val) (start roi r 2 + 4 * oh.val + hh.val) (start roi r 3 + 4 * ow.val + ww.val)

/-- The pooled result as an array [128, 64, 4, 4, 4]. -/
def pooled (x : FVec Ideal SFeat .f32) (roi : IVec SRoi 32) : FVec Ideal SOut .f32 :=
  fun j => pooledAt x roi (j 0) (j 1) (j 2) (j 3) (j 4)

theorem pooled_apply (x : FVec Ideal SFeat .f32) (roi : IVec SRoi 32) (r : Fin 128) (c : Fin 64) (od oh ow : Fin 4) :
    pooled x roi (ix5 r c od oh ow) = pooledAt x roi r c od oh ow := rfl

/-- An extended real bounds a pooled entry exactly when it bounds every value of the window. -/
theorem pooledAt_le_iff (x : FVec Ideal SFeat .f32) (roi : IVec SRoi 32) (r : Fin 128) (c : Fin 64) (od oh ow : Fin 4) (b : EReal) :
    pooledAt x roi r c od oh ow ≤ b ↔ ∀ (dd : Fin 2) (hh : Fin 4) (ww : Fin 4),
      featAt x c (start roi r 1 + 2 * od.val + dd.val) (start roi r 2 + 4 * oh.val + hh.val) (start roi r 3 + 4 * ow.val + ww.val) ≤ b := by
  unfold pooledAt
  simp only [Finset.sup_le_iff, Finset.mem_univ, true_implies]

/-- Two extended reals with the same upper bounds are equal. -/
theorem eq_of_le_iff {a a' : EReal} (h : ∀ b : EReal, a ≤ b ↔ a' ≤ b) : a = a' :=
  le_antisymm ((h a').2 le_rfl) ((h a).1 le_rfl)

/-- The start offsets of every region leave room for its crop. -/
def InRange (roi : IVec SRoi 32) : Prop :=
  ∀ r : Fin 128, start roi r 1 ≤ 56 ∧ start roi r 2 ≤ 112 ∧ start roi r 3 ≤ 112

end Cert.RoiPool

end
-- ==== Proof.HypsBits.lean ====
/-
  What the frame of the word-level kernel asks of the launch memory, from the precondition.

  The three prefetched tables are columns 1, 2, 3 of the region table, each viewed as a vector of 128 words; the
  body reads word r of each at grid point r. Its copy of the 64 x 8 x 16 x 128 slab at depth z1 and height y1 stays
  inside the 64 x 64 x 128 x 128 feature array when z1 + 8 <= 64 and y1 + 16 <= 128 as natural numbers; the precondition
  says, lane by lane, 0 <= z1 <= 56, 0 <= y1 <= 112 and 0 <= x1 <= 112 as signed words, and a word that is between 0 and a
  small bound signed is at most that bound unsigned.

  The tables are computed before the region: a slice [0:1, 0:128, k:k+1] of the region table and a reshape to [128]. A
  reshape keeps the row-major position, and the row-major position of (0, r, 0) in [1, 128, 1] is r, so word r of table k - 1
  is entry (0, r, k) of the region table. The precondition slices and reshapes the region table in the same way, so its
  lane r speaks of the same three entries.
-/
import proofs.«408509_j90469191123539_3_alg».proof.Defs
import proofs.«408509_j90469191123539_3_alg».proof.Proof.KernelFrame
import proofs.«408509_j90469191123539_3_alg».proof.Proof.Gen.Pre_finite_inputs
import proofs.«408509_j90469191123539_3_alg».proof.Proof.Spec
import Idealize.ShloMosaic.Lib.StableHlo.Predicate
import Idealize.ShloMosaic.Lib.StableHlo.Run
import Idealize.ShloMosaic.Lib.Pipeline.Value

set_option maxRecDepth 16384

noncomputable section

namespace Cert.Kernel.HypsOfPre

open Cert.Kernel Cert.Kernel.Gen Cert.Kernel.GenP
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The region table as launched (the program runs on one device). -/
abbrev roi : IVec S1x128x7 32 := m (((0 : Dev nD) : Thread nD τ).loc main_arg1)

/-! ## The tables as the region finds them -/

/-- Table 0 when the region is entered: column 1 of the region table, viewed as a vector of 128 words. -/
theorem tbl0_eq : tbl m 0 = shapeCast S128 (extractStridedSlice S1x128x1 ![0, 0, 1] (roi m) slices_S1x128x7_S1x128x1_0_0_1) shapeCasts_S1x128x1_S128 := by
  unfold tbl
  show V m 0 main_v2 = _
  dsimp only [V, hostOps0]
  after_results
  rfl

/-- Table 1: column 2. -/
theorem tbl1_eq : tbl m 1 = shapeCast S128 (extractStridedSlice S1x128x1 ![0, 0, 2] (roi m) slices_S1x128x7_S1x128x1_0_0_2) shapeCasts_S1x128x1_S128 := by
  unfold tbl
  show V m 0 main_v4 = _
  dsimp only [V, hostOps0]
  after_results
  rfl

/-- Table 2: column 3. -/
theorem tbl2_eq : tbl m 2 = shapeCast S128 (extractStridedSlice S1x128x1 ![0, 0, 3] (roi m) slices_S1x128x7_S1x128x1_0_0_3) shapeCasts_S1x128x1_S128 := by
  unfold tbl
  show V m 0 main_v6 = _
  dsimp only [V, hostOps0]
  after_results
  rfl

/-- Word r of column k of a [1, 128, 7] table viewed as a 128-vector is entry (0, r, k): position r of the vector is
    row-major position r of the [1, 128, 1] slice, which is its index (0, r, 0), and the slice starts at column k. -/
theorem col_apply (x : IVec S1x128x7 32) (k : Fin 7) (off : Fin 3 → Nat) (hoff : off = ![0, 0, k.val])
    (hs : S1x128x7.Slices off S1x128x1) (hc : S1x128x1.ShapeCasts S128) (r : Fin 128) :
    shapeCast S128 (extractStridedSlice S1x128x1 off x hs) hc (ix1 r) = x (ix3 (0 : Fin 1) r k) := by
  subst hoff
  refine (shapeCast_apply _ hc (ix1 r) (ix3 (0 : Fin 1) r (0 : Fin 1)) ?_).trans ?_
  · rw [Shape.rowMajor_val_one, Shape.rowMajor_val_three]; simp
  · refine extractStridedSlice_apply _ x hs _ _ fun a => ?_
    fin_cases a <;> simp

/-! ## The word read at a grid point -/

/-- The one index of a unit rectangle of one word at offset r of a 128-vector is index r. -/
theorem unit_idx (off : Fin 1 → Nat) (r : Fin 128) (hoff : off 0 = r.val) (inb : ∀ a, off a + S1.size a ≤ S128.size a)
    (h1 : 0 < S1.numel) :
    (Rect.unit (s := S128) off S1.size inb).toLoadRect.idx (Shape.Idx.first h1) = ix1 r := by
  funext a
  obtain rfl : a = 0 := Subsingleton.elim _ _
  apply Fin.ext
  rw [LoadRect.idx_apply]
  have hj : (Shape.Idx.first h1 (0 : Fin 1)).val < 1 := (Shape.Idx.first h1 (0 : Fin 1)).isLt
  show off 0 + 1 * (Shape.Idx.first h1 (0 : Fin 1)).val = r.val
  omega

/-- Reading one word at offset r through a whole 128-word table gives the table's word r, whatever the table holds. -/
theorem read0 (x : TbBuf0 (F := F) (0 : Dev nD) tbM0_0) (off : Fin 1 → Nat) (r : Fin 128) (hoff : off 0 = r.val)
    (inb : ∀ a, off a + S1.size a ≤ S128.size a) (h1 : 0 < S1.numel) :
    tbM0_0.view.readAt (Elt F) (Rect.unit (s := S128) off S1.size inb).toLoadRect x (Shape.Idx.first h1) = x (ix1 r) :=
  congrArg x (unit_idx off r hoff inb h1)

theorem read1 (x : TbBuf0 (F := F) (0 : Dev nD) tbM0_1) (off : Fin 1 → Nat) (r : Fin 128) (hoff : off 0 = r.val)
    (inb : ∀ a, off a + S1.size a ≤ S128.size a) (h1 : 0 < S1.numel) :
    tbM0_1.view.readAt (Elt F) (Rect.unit (s := S128) off S1.size inb).toLoadRect x (Shape.Idx.first h1) = x (ix1 r) :=
  congrArg x (unit_idx off r hoff inb h1)

theorem read2 (x : TbBuf0 (F := F) (0 : Dev nD) tbM0_2) (off : Fin 1 → Nat) (r : Fin 128) (hoff : off 0 = r.val)
    (inb : ∀ a, off a + S1.size a ≤ S128.size a) (h1 : 0 < S1.numel) :
    tbM0_2.view.readAt (Elt F) (Rect.unit (s := S128) off S1.size inb).toLoadRect x (Shape.Idx.first h1) = x (ix1 r) :=
  congrArg x (unit_idx off r hoff inb h1)

/-- The offset of each read is the grid coordinate. -/
theorem off1_zero (i : grid0.Coords) : k0_off1 i 0 = (i 0).val := by rw [k0_off1_eq]; rfl
theorem off3_zero (i : grid0.Coords) : k0_off3 i 0 = (i 0).val := by rw [k0_off3_eq]; rfl

/-- The depth start the body reads at grid point r. -/
theorem word0 (i : grid0.Coords) (r : Fin 128) (hr : (i 0).val = r.val) :
    tbM0_0.view.readAt (Elt F) (Rect.unit (s := S128) (k0_off1 i) S1.size (k0_off1_inb i)).toLoadRect (tbl m 0)
        (Shape.Idx.first (numel1_S1.symm ▸ Nat.one_pos))
      = roi m (ix3 (0 : Fin 1) r (1 : Fin 7)) := by
  refine (read0 (tbl m 0) _ r ((off1_zero i).trans hr) _ _).trans ?_
  rw [tbl0_eq]
  exact col_apply (roi m) 1 _ rfl _ _ r

/-- The height start the body reads at grid point r. -/
theorem word1 (i : grid0.Coords) (r : Fin 128) (hr : (i 0).val = r.val) :
    tbM0_1.view.readAt (Elt F) (Rect.unit (s := S128) (k0_off1 i) S1.size (k0_off1_inb i)).toLoadRect (tbl m 1)
        (Shape.Idx.first (numel1_S1.symm ▸ Nat.one_pos))
      = roi m (ix3 (0 : Fin 1) r (2 : Fin 7)) := by
  refine (read1 (tbl m 1) _ r ((off1_zero i).trans hr) _ _).trans ?_
  rw [tbl1_eq]
  exact col_apply (roi m) 2 _ rfl _ _ r

/-- The width start the body reads at grid point r. -/
theorem word2 (i : grid0.Coords) (r : Fin 128) (hr : (i 0).val = r.val) :
    tbM0_2.view.readAt (Elt F) (Rect.unit (s := S128) (k0_off3 i) S1.size (k0_off3_inb i)).toLoadRect (tbl m 2)
        (Shape.Idx.first (numel1_S1.symm ▸ Nat.one_pos))
      = roi m (ix3 (0 : Fin 1) r (3 : Fin 7)) := by
  refine (read2 (tbl m 2) _ r ((off3_zero i).trans hr) _ _).trans ?_
  rw [tbl2_eq]
  exact col_apply (roi m) 3 _ rfl _ _ r

/-! ## The precondition at one lane -/

/-- A word between 0 and a small bound as a signed number is at most that bound as a natural number: a word that is
    not negative reads the same signed and unsigned. -/
theorem toNat_le_of_signed (w : BitVec 32) (n : Nat) (hn : n < 2 ^ 31)
    (h0 : IntOp.cmpi .sge w 0#32 = 1#1) (h1 : IntOp.cmpi .sle w (BitVec.ofNat 32 n) = 1#1) : w.toNat ≤ n := by
  simp only [IntOp.cmpi, StableHlo.Predicate.ofBool_eq_one_iff, BitVec.sle, decide_eq_true_eq] at h0 h1
  rw [StableHlo.Predicate.toInt_ofNat_small n hn] at h1
  rw [show (0#32 : BitVec 32).toInt = 0 from by decide] at h0
  rw [BitVec.toInt_eq_toNat_cond] at h0 h1
  have hw := w.isLt
  split at h0 <;> omega

/-- The precondition at lane r, over any two argument arrays: a conjunction of seven bits, the first about the feature
    array (not needed here), the other six the signed bounds on entries (0, r, 1), (0, r, 2), (0, r, 3) of the region table. -/
theorem pre_lane (x0 : FVec F S1x64x64x128x128 .f32) (x1 : IVec S1x128x7 32) (r : Fin 128)
    (e : Cert.Pre_finite_inputs.fn (F := F) x0 x1 (ix1 r) = 1#1) :
    (x1 (ix3 (0 : Fin 1) r (1 : Fin 7))).toNat ≤ 56 ∧ (x1 (ix3 (0 : Fin 1) r (2 : Fin 7))).toNat ≤ 112
      ∧ (x1 (ix3 (0 : Fin 1) r (3 : Fin 7))).toNat ≤ 112 := by
  simp only [Cert.Pre_finite_inputs.fn, Cert.Pre_finite_inputs.fn_part1, andi, cmpi, IntOp.andi_eq_one] at e
  obtain ⟨⟨⟨⟨⟨⟨-, z0⟩, z1⟩, y0⟩, y1⟩, w0⟩, w1⟩ := e
  rw [col_apply x1 1 ![0, 0, 1] rfl] at z0 z1
  rw [col_apply x1 2 ![0, 0, 2] rfl] at y0 y1
  rw [col_apply x1 3 ![0, 0, 3] rfl] at w0 w1
  exact ⟨toNat_le_of_signed _ 56 (by decide) z0 z1, toNat_le_of_signed _ 112 (by decide) y0 y1,
    toNat_le_of_signed _ 112 (by decide) w0 w1⟩

/-- The slab of extent 64 x 8 x 16 x 128 at depth v1 and height v3 lies inside the 64 x 64 x 128 x 128 array when
    v1 is at most 56 and v3 at most 112: axis by axis, 0 + 64 <= 64, v1 + 8 <= 64, v3 + 16 <= 128, 0 + 128 <= 128. -/
theorem chk_of_le (v1 v3 : BitVec 32) (h1 : v1.toNat ≤ 56) (h3 : v3.toNat ≤ 112) : k0_chk1 v1 v3 := by
  intro a
  match a with
  | ⟨0, _⟩ => exact Nat.le_refl 64
  | ⟨1, _⟩ => show v1.toNat + 8 ≤ 64; omega
  | ⟨2, _⟩ => show v3.toNat + 16 ≤ 128; omega
  | ⟨3, _⟩ => exact Nat.le_refl 128

end Cert.Kernel.HypsOfPre

namespace Cert.Kernel.HypsOfPre

open Cert.Kernel Cert.Kernel.Gen Cert.Kernel.GenP
open Idealize.ShloMosaic Idealize.ShloMosaic.TcCoe Idealize.SL.Sem Idealize.ShloMosaic.ValueIdx

variable (m : (ℓ : Loc nD τ sig) → Buf (Elt Bits) ℓ)

/-- The precondition, read lane by lane: every region's starts leave room for its crop. -/
theorem inRange_of_pre (h : Cert.Pre_Kernel m) : Cert.RoiPool.InRange (roi m) := fun r =>
  pre_lane _ (roi m) r (congrFun (h 0) (ix1 r))

/-- No index map reads a table: the pipeline's side condition is empty. -/
theorem ok_of_pre (h : Cert.Pre_Kernel m) : Ok m := trivial

/-- The slab the body copies at every grid point lies inside the feature array. -/
theorem hyps_of_pre (h : Cert.Pre_Kernel m) (hO : Ok m) : Hyps m hO :=
  Hyps.of fun c t => by
    have hlt : ((grid0.coords t) 0).val < 128 := ((grid0.coords t) 0).isLt
    obtain ⟨h1, h2, -⟩ := inRange_of_pre m h ⟨((grid0.coords t) 0).val, hlt⟩
    show k0_chk1 _ _
    rw [word0 m (grid0.coords t) ⟨((grid0.coords t) 0).val, hlt⟩ rfl, word1 m (grid0.coords t) ⟨((grid0.coords t) 0).val, hlt⟩ rfl]
    exact chk_of_le _ _ h1 h2

end Cert.Kernel.HypsOfPre

end
-- ==== Proof.HypsIdeal.lean ====
/-
  What the frame of the idealized kernel asks of the launch memory, from the precondition.

  The three prefetched tables are columns 1, 2, 3 of the region table, each viewed as a vector of 128 words; the
  body reads word r of each at grid point r. Its copy of the 64 x 8 x 16 x 128 slab at depth z1 and height y1 stays
  inside the 64 x 64 x 128 x 128 feature array when z1 + 8 <= 64 and y1 + 16 <= 128 as natural numbers; the precondition
  says, lane by lane, 0 <= z1 <= 56, 0 <= y1 <= 112 and 0 <= x1 <= 112 as signed words, and a word that is between 0 and a
  small bound signed is at most that bound unsigned.

  The tables are computed before the region: a slice [0:1, 0:128, k:k+1] of the region table and a reshape to [128]. A
  reshape keeps the row-major position, and the row-major position of (0, r, 0) in [1, 128, 1] is r, so word r of table k - 1
  is entry (0, r, k) of the region table. The precondition slices and reshapes the region table in the same way, so its
  lane r speaks of the same three entries.
-/
import proofs.«408509_j90469191123539_3_alg».proof.Defs
import proofs.«408509_j90469191123539_3_alg».proof.Proof.KernelIdealFrame
import proofs.«408509_j90469191123539_3_alg».proof.Proof.Gen.Pre_finite_inputs
import proofs.«408509_j90469191123539_3_alg».proof.Proof.Spec
import Idealize.ShloMosaic.Lib.StableHlo.Predicate
import Idealize.ShloMosaic.Lib.StableHlo.Run
import Idealize.ShloMosaic.Lib.Pipeline.Value

set_option maxRecDepth 16384

noncomputable section

namespace Cert.KernelIdeal.HypsOfPre

open Cert.KernelIdeal Cert.KernelIdeal.Gen Cert.KernelIdeal.GenP
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-- The region table as launched (the program runs on one device). -/
abbrev roi : IVec S1x128x7 32 := m (((0 : Dev nD) : Thread nD τ).loc main_arg1)

/-! ## The tables as the region finds them -/

/-- Table 0 when the region is entered: column 1 of the region table, viewed as a vector of 128 words. -/
theorem tbl0_eq : tbl m 0 = shapeCast S128 (extractStridedSlice S1x128x1 ![0, 0, 1] (roi m) slices_S1x128x7_S1x128x1_0_0_1) shapeCasts_S1x128x1_S128 := by
  unfold tbl
  show V m 0 main_v2 = _
  dsimp only [V, hostOps0]
  after_results
  rfl

/-- Table 1: column 2. -/
theorem tbl1_eq : tbl m 1 = shapeCast S128 (extractStridedSlice S1x128x1 ![0, 0, 2] (roi m) slices_S1x128x7_S1x128x1_0_0_2) shapeCasts_S1x128x1_S128 := by
  unfold tbl
  show V m 0 main_v4 = _
  dsimp only [V, hostOps0]
  after_results
  rfl

/-- Table 2: column 3. -/
theorem tbl2_eq : tbl m 2 = shapeCast S128 (extractStridedSlice S1x128x1 ![0, 0, 3] (roi m) slices_S1x128x7_S1x128x1_0_0_3) shapeCasts_S1x128x1_S128 := by
  unfold tbl
  show V m 0 main_v6 = _
  dsimp only [V, hostOps0]
  after_results
  rfl

/-- Word r of column k of a [1, 128, 7] table viewed as a 128-vector is entry (0, r, k): position r of the vector is
    row-major position r of the [1, 128, 1] slice, which is its index (0, r, 0), and the slice starts at column k. -/
theorem col_apply (x : IVec S1x128x7 32) (k : Fin 7) (off : Fin 3 → Nat) (hoff : off = ![0, 0, k.val])
    (hs : S1x128x7.Slices off S1x128x1) (hc : S1x128x1.ShapeCasts S128) (r : Fin 128) :
    shapeCast S128 (extractStridedSlice S1x128x1 off x hs) hc (ix1 r) = x (ix3 (0 : Fin 1) r k) := by
  subst hoff
  refine (shapeCast_apply _ hc (ix1 r) (ix3 (0 : Fin 1) r (0 : Fin 1)) ?_).trans ?_
  · rw [Shape.rowMajor_val_one, Shape.rowMajor_val_three]; simp
  · refine extractStridedSlice_apply _ x hs _ _ fun a => ?_
    fin_cases a <;> simp

/-! ## The word read at a grid point -/

/-- The one index of a unit rectangle of one word at offset r of a 128-vector is index r. -/
theorem unit_idx (off : Fin 1 → Nat) (r : Fin 128) (hoff : off 0 = r.val) (inb : ∀ a, off a + S1.size a ≤ S128.size a)
    (h1 : 0 < S1.numel) :
    (Rect.unit (s := S128) off S1.size inb).toLoadRect.idx (Shape.Idx.first h1) = ix1 r := by
  funext a
  obtain rfl : a = 0 := Subsingleton.elim _ _
  apply Fin.ext
  rw [LoadRect.idx_apply]
  have hj : (Shape.Idx.first h1 (0 : Fin 1)).val < 1 := (Shape.Idx.first h1 (0 : Fin 1)).isLt
  show off 0 + 1 * (Shape.Idx.first h1 (0 : Fin 1)).val = r.val
  omega

/-- Reading one word at offset r through a whole 128-word table gives the table's word r, whatever the table holds. -/
theorem read0 (x : TbBuf0 (F := F) (0 : Dev nD) tbM0_0) (off : Fin 1 → Nat) (r : Fin 128) (hoff : off 0 = r.val)
    (inb : ∀ a, off a + S1.size a ≤ S128.size a) (h1 : 0 < S1.numel) :
    tbM0_0.view.readAt (Elt F) (Rect.unit (s := S128) off S1.size inb).toLoadRect x (Shape.Idx.first h1) = x (ix1 r) :=
  congrArg x (unit_idx off r hoff inb h1)

theorem read1 (x : TbBuf0 (F := F) (0 : Dev nD) tbM0_1) (off : Fin 1 → Nat) (r : Fin 128) (hoff : off 0 = r.val)
    (inb : ∀ a, off a + S1.size a ≤ S128.size a) (h1 : 0 < S1.numel) :
    tbM0_1.view.readAt (Elt F) (Rect.unit (s := S128) off S1.size inb).toLoadRect x (Shape.Idx.first h1) = x (ix1 r) :=
  congrArg x (unit_idx off r hoff inb h1)

theorem read2 (x : TbBuf0 (F := F) (0 : Dev nD) tbM0_2) (off : Fin 1 → Nat) (r : Fin 128) (hoff : off 0 = r.val)
    (inb : ∀ a, off a + S1.size a ≤ S128.size a) (h1 : 0 < S1.numel) :
    tbM0_2.view.readAt (Elt F) (Rect.unit (s := S128) off S1.size inb).toLoadRect x (Shape.Idx.first h1) = x (ix1 r) :=
  congrArg x (unit_idx off r hoff inb h1)

/-- The offset of each read is the grid coordinate. -/
theorem off1_zero (i : grid0.Coords) : k0_off1 i 0 = (i 0).val := by rw [k0_off1_eq]; rfl
theorem off3_zero (i : grid0.Coords) : k0_off3 i 0 = (i 0).val := by rw [k0_off3_eq]; rfl

/-- The depth start the body reads at grid point r. -/
theorem word0 (i : grid0.Coords) (r : Fin 128) (hr : (i 0).val = r.val) :
    tbM0_0.view.readAt (Elt F) (Rect.unit (s := S128) (k0_off1 i) S1.size (k0_off1_inb i)).toLoadRect (tbl m 0)
        (Shape.Idx.first (numel1_S1.symm ▸ Nat.one_pos))
      = roi m (ix3 (0 : Fin 1) r (1 : Fin 7)) := by
  refine (read0 (tbl m 0) _ r ((off1_zero i).trans hr) _ _).trans ?_
  rw [tbl0_eq]
  exact col_apply (roi m) 1 _ rfl _ _ r

/-- The height start the body reads at grid point r. -/
theorem word1 (i : grid0.Coords) (r : Fin 128) (hr : (i 0).val = r.val) :
    tbM0_1.view.readAt (Elt F) (Rect.unit (s := S128) (k0_off1 i) S1.size (k0_off1_inb i)).toLoadRect (tbl m 1)
        (Shape.Idx.first (numel1_S1.symm ▸ Nat.one_pos))
      = roi m (ix3 (0 : Fin 1) r (2 : Fin 7)) := by
  refine (read1 (tbl m 1) _ r ((off1_zero i).trans hr) _ _).trans ?_
  rw [tbl1_eq]
  exact col_apply (roi m) 2 _ rfl _ _ r

/-- The width start the body reads at grid point r. -/
theorem word2 (i : grid0.Coords) (r : Fin 128) (hr : (i 0).val = r.val) :
    tbM0_2.view.readAt (Elt F) (Rect.unit (s := S128) (k0_off3 i) S1.size (k0_off3_inb i)).toLoadRect (tbl m 2)
        (Shape.Idx.first (numel1_S1.symm ▸ Nat.one_pos))
      = roi m (ix3 (0 : Fin 1) r (3 : Fin 7)) := by
  refine (read2 (tbl m 2) _ r ((off3_zero i).trans hr) _ _).trans ?_
  rw [tbl2_eq]
  exact col_apply (roi m) 3 _ rfl _ _ r

/-! ## The precondition at one lane -/

/-- A word between 0 and a small bound as a signed number is at most that bound as a natural number: a word that is
    not negative reads the same signed and unsigned. -/
theorem toNat_le_of_signed (w : BitVec 32) (n : Nat) (hn : n < 2 ^ 31)
    (h0 : IntOp.cmpi .sge w 0#32 = 1#1) (h1 : IntOp.cmpi .sle w (BitVec.ofNat 32 n) = 1#1) : w.toNat ≤ n := by
  simp only [IntOp.cmpi, StableHlo.Predicate.ofBool_eq_one_iff, BitVec.sle, decide_eq_true_eq] at h0 h1
  rw [StableHlo.Predicate.toInt_ofNat_small n hn] at h1
  rw [show (0#32 : BitVec 32).toInt = 0 from by decide] at h0
  rw [BitVec.toInt_eq_toNat_cond] at h0 h1
  have hw := w.isLt
  split at h0 <;> omega

/-- The precondition at lane r, over any two argument arrays: a conjunction of seven bits, the first about the feature
    array (not needed here), the other six the signed bounds on entries (0, r, 1), (0, r, 2), (0, r, 3) of the region table. -/
theorem pre_lane (x0 : FVec F S1x64x64x128x128 .f32) (x1 : IVec S1x128x7 32) (r : Fin 128)
    (e : Cert.Pre_finite_inputs.fn (F := F) x0 x1 (ix1 r) = 1#1) :
    (x1 (ix3 (0 : Fin 1) r (1 : Fin 7))).toNat ≤ 56 ∧ (x1 (ix3 (0 : Fin 1) r (2 : Fin 7))).toNat ≤ 112
      ∧ (x1 (ix3 (0 : Fin 1) r (3 : Fin 7))).toNat ≤ 112 := by
  simp only [Cert.Pre_finite_inputs.fn, Cert.Pre_finite_inputs.fn_part1, andi, cmpi, IntOp.andi_eq_one] at e
  obtain ⟨⟨⟨⟨⟨⟨-, z0⟩, z1⟩, y0⟩, y1⟩, w0⟩, w1⟩ := e
  rw [col_apply x1 1 ![0, 0, 1] rfl] at z0 z1
  rw [col_apply x1 2 ![0, 0, 2] rfl] at y0 y1
  rw [col_apply x1 3 ![0, 0, 3] rfl] at w0 w1
  exact ⟨toNat_le_of_signed _ 56 (by decide) z0 z1, toNat_le_of_signed _ 112 (by decide) y0 y1,
    toNat_le_of_signed _ 112 (by decide) w0 w1⟩

/-- The slab of extent 64 x 8 x 16 x 128 at depth v1 and height v3 lies inside the 64 x 64 x 128 x 128 array when
    v1 is at most 56 and v3 at most 112: axis by axis, 0 + 64 <= 64, v1 + 8 <= 64, v3 + 16 <= 128, 0 + 128 <= 128. -/
theorem chk_of_le (v1 v3 : BitVec 32) (h1 : v1.toNat ≤ 56) (h3 : v3.toNat ≤ 112) : k0_chk1 v1 v3 := by
  intro a
  match a with
  | ⟨0, _⟩ => exact Nat.le_refl 64
  | ⟨1, _⟩ => show v1.toNat + 8 ≤ 64; omega
  | ⟨2, _⟩ => show v3.toNat + 16 ≤ 128; omega
  | ⟨3, _⟩ => exact Nat.le_refl 128

end Cert.KernelIdeal.HypsOfPre

namespace Cert.KernelIdeal.HypsOfPre

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ)

/-- The precondition, read lane by lane: every region's starts leave room for its crop. -/
theorem inRange_of_pre (h : Cert.Pre_KernelIdeal m) : Cert.RoiPool.InRange (roi m) := fun r =>
  pre_lane _ (roi m) r (congrFun (h 0) (ix1 r))

/-- No index map reads a table: the pipeline's side condition is empty. -/
theorem ok_of_pre (h : Cert.Pre_KernelIdeal m) : Ok m := trivial

/-- The slab the body copies at every grid point lies inside the feature array. -/
theorem hyps_of_pre (h : Cert.Pre_KernelIdeal m) (hO : Ok m) : Hyps m hO :=
  Hyps.of fun c t => by
    have hlt : ((grid0.coords t) 0).val < 128 := ((grid0.coords t) 0).isLt
    obtain ⟨h1, h2, -⟩ := inRange_of_pre m h ⟨((grid0.coords t) 0).val, hlt⟩
    show k0_chk1 _ _
    rw [word0 m (grid0.coords t) ⟨((grid0.coords t) 0).val, hlt⟩ rfl, word1 m (grid0.coords t) ⟨((grid0.coords t) 0).val, hlt⟩ rfl]
    exact chk_of_le _ _ h1 h2

end Cert.KernelIdeal.HypsOfPre

end
-- ==== Proof.Body.lean ====
/-
  The value the kernel body stores, as a pure function of the crop it copied in and of the width start, and that
  value read at an index at the ideal instance.

  The body takes, for each of the four width windows k, the lane maximum of the crop with every lane outside
  [x1 + 4k, x1 + 4k + 4) replaced by the fill value, which at the ideal instance is the bottom element; then, over
  the four results, the maxima over the four height windows of extent 4 and the four depth windows of extent 2.
  A maximum against the bottom element is the other operand, so an extended real bounds entry (c, od, oh, ow) of the
  stored block exactly when it bounds the 2 x 4 x 4 crop values of that window.

  The stored value is first restated as a composition of named stages (one width window, the four windows side by
  side, one height window, the four height windows stacked, one depth window, the four depth windows stacked); the
  restatement holds by unfolding. Each stage is then read at an index: a maximum reduction from the bottom element is
  bounded exactly when every reduced entry is; a stack of four unit-extent pieces reads, at position k of the stacking
  axis, piece k; a slice reads the operand at the index shifted by its offset.
-/
import proofs.«408509_j90469191123539_3_alg».proof.Proof.Gen.KernelIdeal.Skeleton
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value
import Idealize.ShloMosaic.Lib.StableHlo.Predicate

noncomputable section

namespace Cert.KernelIdeal.Body

open Cert.KernelIdeal Cert.KernelIdeal.Gen
open Idealize.ShloMosaic Idealize.ShloMosaic.ValueIdx

/-- What the body stores into its output block, from the crop and the width start it read. -/
def bodyVal {F : FTy → Type} [FloatOps F] [Named F] (crop : Vec F S64x8x16x128 .f32) (x1 : BitVec 32) : FVec F S1x64x4x4x4 .f32 :=
  k0_pay1 (k0_pay6 crop x1 (iota .tc S64x8x16x128 32 [3] iota_S64x8x16x128_d3_w32) (k0_pay2 crop x1) (k0_pay3 crop x1)
    (k0_pay4 (F := F) x1) (k0_pay5 (F := F) x1))

/-- The crop's value of channel c at depth d, height h, lane w (each read modulo its extent). -/
def cropAt (crop : Vec Ideal S64x8x16x128 .f32) (c : Fin 64) (d h w : ℕ) : EReal :=
  crop (ix4 c ⟨d % 8, Nat.mod_lt _ (by decide)⟩ ⟨h % 16, Nat.mod_lt _ (by decide)⟩ ⟨w % 128, Nat.mod_lt _ (by decide)⟩)

/-! ## The stored value as a composition of stages -/

/-- One width window: the lane maximum of the crop with the lanes outside [lo, hi) replaced by the fill value,
    with a trailing unit axis. -/
def win {F : FTy → Type} [FloatOps F] [Named F] (crop : Vec F S64x8x16x128 .f32) (lo hi : BitVec 32) : FVec F S64x8x16x1 .f32 :=
  shapeCast S64x8x16x1
    (multiReduction .maximumf [3] S64x8x16
      (select
        (andi (cmpi .sge (iota .tc S64x8x16x128 32 [3] iota_S64x8x16x128_d3_w32) (broadcast S64x8x16x128 lo))
          (cmpi .slt (iota .tc S64x8x16x128 32 [3] iota_S64x8x16x128_d3_w32) (broadcast S64x8x16x128 hi)))
        crop (broadcast S64x8x16x128 (Named.named κ "neg_big" 0xF149F2CA#32)))
      0xFF800000#32 reduces_S64x8x16x128_S64x8x16 (.inl rfl) rfl)
    shapeCasts_S64x8x16_S64x8x16x1

/-- The four width windows side by side along a new last axis. -/
def cat4 {F : FTy → Type} (w0 w1 w2 w3 : FVec F S64x8x16x1 .f32) : FVec F S64x8x16x4 .f32 :=
  concatenate S64x8x16x4 3 [⟨S64x8x16x1, w0⟩, ⟨S64x8x16x1, w1⟩, ⟨S64x8x16x1, w2⟩, ⟨S64x8x16x1, w3⟩]
    concatenates_S64x8x16x1_S64x8x16x1_S64x8x16x1_S64x8x16x1_S64x8x16x4_d3

/-- One height window: rows o … o + 3 of axis 2, reduced by maximum, with the axis kept as a unit axis. -/
def hwin {F : FTy → Type} [FloatOps F] (v : FVec F S64x8x16x4 .f32) (o : Nat) (hs : S64x8x16x4.Slices ![0, 0, o, 0] S64x8x4x4) :
    FVec F S64x8x1x4 .f32 :=
  shapeCast S64x8x1x4
    (multiReduction .maximumf [2] S64x8x4 (extractStridedSlice S64x8x4x4 ![0, 0, o, 0] v hs)
      0xFF800000#32 reduces_S64x8x4x4_S64x8x4 (.inl rfl) rfl)
    shapeCasts_S64x8x4_S64x8x1x4

/-- The four height windows stacked along axis 2. -/
def hpool {F : FTy → Type} [FloatOps F] (v : FVec F S64x8x16x4 .f32) : FVec F S64x8x4x4 .f32 :=
  concatenate S64x8x4x4 2
    [⟨S64x8x1x4, hwin v 0 slices_S64x8x16x4_o0_0_0_0_S64x8x4x4⟩, ⟨S64x8x1x4, hwin v 4 slices_S64x8x16x4_o0_0_4_0_S64x8x4x4⟩,
     ⟨S64x8x1x4, hwin v 8 slices_S64x8x16x4_o0_0_8_0_S64x8x4x4⟩, ⟨S64x8x1x4, hwin v 12 slices_S64x8x16x4_o0_0_12_0_S64x8x4x4⟩]
    concatenates_S64x8x1x4_S64x8x1x4_S64x8x1x4_S64x8x1x4_S64x8x4x4_d2

/-- One depth window: rows o, o + 1 of axis 1, reduced by maximum, with the axis kept as a unit axis. -/
def dwin {F : FTy → Type} [FloatOps F] (v : FVec F S64x8x4x4 .f32) (o : Nat) (hs : S64x8x4x4.Slices ![0, o, 0, 0] S64x2x4x4) :
    FVec F S64x1x4x4 .f32 :=
  shapeCast S64x1x4x4
    (multiReduction .maximumf [1] S64x4x4 (extractStridedSlice S64x2x4x4 ![0, o, 0, 0] v hs)
      0xFF800000#32 reduces_S64x2x4x4_S64x4x4 (.inl rfl) rfl)
    shapeCasts_S64x4x4_S64x1x4x4

/-- The four depth windows stacked along axis 1. -/
def dpool {F : FTy → Type} [FloatOps F] (v : FVec F S64x8x4x4 .f32) : FVec F S64x4x4x4 .f32 :=
  concatenate S64x4x4x4 1
    [⟨S64x1x4x4, dwin v 0 slices_S64x8x4x4_o0_0_0_0_S64x2x4x4⟩, ⟨S64x1x4x4, dwin v 2 slices_S64x8x4x4_o0_2_0_0_S64x2x4x4⟩,
     ⟨S64x1x4x4, dwin v 4 slices_S64x8x4x4_o0_4_0_0_S64x2x4x4⟩, ⟨S64x1x4x4, dwin v 6 slices_S64x8x4x4_o0_6_0_0_S64x2x4x4⟩]
    concatenates_S64x1x4x4_S64x1x4x4_S64x1x4x4_S64x1x4x4_S64x4x4x4_d1

/-- The stored value is the depth pooling of the height pooling of the four width windows, with a leading unit axis:
    the payloads unfold to exactly this composition. -/
theorem bodyVal_eq_stages {F : FTy → Type} [FloatOps F] [Named F] (crop : Vec F S64x8x16x128 .f32) (x1 : BitVec 32) :
    bodyVal crop x1 = shapeCast S1x64x4x4x4
      (dpool (hpool (cat4 (win crop (x1 + 0#32) (x1 + 4#32)) (win crop (x1 + 4#32) (x1 + 8#32))
        (win crop (x1 + 8#32) (x1 + 12#32)) (win crop (x1 + 12#32) (x1 + 16#32)))))
      shapeCasts_S64x4x4x4_S1x64x4x4x4 := rfl

/-! ## A maximum reduction from the bottom element -/

/-- The reductions' initial word is minus infinity, the bottom extended real. -/
theorem negInf_bits : Ideal.ofBits .f32 0xFF800000#32 = (⊥ : EReal) := by
  simp [Ideal.ofBits, Ideal.ieee]

/-- The fill value is named the bottom element at the ideal instance. -/
theorem negBig_eq : Named.named (F := Ideal) Cert.KernelIdeal.κ "neg_big" (φ := .f32) 0xF149F2CA#32 = (⊥ : EReal) :=
  IdealRules.named_const.ideal_named_scalar Cert.KernelIdeal.κ "neg_big" _ ⊥ rfl

/-- A one-axis maximum reduction that starts from the bottom element is bounded by b exactly when every entry along the
    reduced axis is. -/
theorem maxRed_le_iff {s t : Shape} {a : Fin s.rank} (src : FVec Ideal s .f32) (h : s.Reduces [a] t)
    (hφ : FKind.Formats .f32) (hacc : (0xFF800000#32 : BitVec 32) = FKind.maximumf.neutral .f32 hφ) (j : t.Idx) (b : EReal) :
    multiReduction .maximumf [a] t src 0xFF800000#32 h hφ hacc j ≤ b ↔ ∀ k : Fin (s.size a), src (h.lift j k) ≤ b := by
  rw [Ideal.multiReduction_maximumf_single src _ h hφ hacc j, Finset.fold_max_le]
  show Ideal.ofBits .f32 0xFF800000#32 ≤ b ∧ _ ↔ _
  rw [negInf_bits]
  simp

/-! ## One width window -/

/-- For words below 2^31 the lane mask `lo ≤ x < hi`, computed by signed compares, is set exactly when the naturals satisfy it. -/
theorem mask_eq_one_iff (x lo hi : BitVec 32) (hx : x.toNat < 2 ^ 31) (hlo : lo.toNat < 2 ^ 31) (hhi : hi.toNat < 2 ^ 31) :
    IntOp.andi (IntOp.cmpi .sge x lo) (IntOp.cmpi .slt x hi) = 1#1 ↔ lo.toNat ≤ x.toNat ∧ x.toNat < hi.toNat := by
  rw [← StableHlo.Predicate.sge_iff_toNat hx hlo, ← StableHlo.Predicate.slt_iff_toNat hx hhi]
  generalize IntOp.cmpi .sge x lo = p
  generalize IntOp.cmpi .slt x hi = q
  rcases BitVec.eq_zero_or_eq_one p with rfl | rfl <;> rcases BitVec.eq_zero_or_eq_one q with rfl | rfl <;> decide

/-- A selection between a value and the bottom element is bounded by b exactly when the value is, wherever the mask is set. -/
theorem select_bot_le_iff (m : BitVec 1) (a b : EReal) : Scalar.select m a (⊥ : EReal) ≤ b ↔ (m = 1#1 → a ≤ b) := by
  unfold Scalar.select
  split
  · next h => exact ⟨fun hab _ => hab, fun hab => hab h⟩
  · next h => exact ⟨fun _ hm => absurd hm h, fun _ => bot_le⟩

/-- The index (c, d, h) with lane k inserted on the last axis is (c, d, h, k). -/
theorem lift3 (hr : S64x8x16x128.Reduces [3] S64x8x16) (c : Fin 64) (d : Fin 8) (h : Fin 16) (k : Fin 128) :
    hr.lift (ix3 c d h) k = ix4 c d h k := by
  funext a
  apply Fin.ext
  match a with
  | ⟨0, _⟩ => rfl
  | ⟨1, _⟩ => rfl
  | ⟨2, _⟩ => rfl
  | ⟨3, _⟩ => rfl

/-- A width window is bounded by b exactly when every crop value on a lane of [lo, hi) is: the lanes outside contribute the
    bottom element. -/
theorem win_le_iff (crop : Vec Ideal S64x8x16x128 .f32) (lo hi : BitVec 32) (hlo : lo.toNat < 2 ^ 31) (hhi : hi.toNat < 2 ^ 31)
    (c : Fin 64) (d : Fin 8) (h : Fin 16) (b : EReal) :
    win (F := Ideal) crop lo hi (ix4 c d h (0 : Fin 1)) ≤ b ↔
      ∀ w : Fin 128, lo.toNat ≤ w.val → w.val < hi.toNat → crop (ix4 c d h w) ≤ b := by
  have e : win (F := Ideal) crop lo hi (ix4 c d h (0 : Fin 1)) = _ :=
    shapeCast_apply _ shapeCasts_S64x8x16_S64x8x16x1 (ix4 c d h (0 : Fin 1)) (ix3 c d h) (by
      rw [Shape.rowMajor_val_three, Shape.rowMajor_val_four]; simp)
  rw [e]
  refine (maxRed_le_iff _ _ _ _ _ _).trans ?_
  refine forall_congr' fun w => ?_
  rw [lift3 _ c d h w, select_apply, broadcast_apply, negBig_eq]
  refine (select_bot_le_iff _ _ _).trans ?_
  have hw : w.val < 128 := w.isLt
  have hio : iota .tc S64x8x16x128 32 [3] iota_S64x8x16x128_d3_w32 (ix4 c d h w) = BitVec.ofNat 32 w.val :=
    iota_single_apply _ _ _ _ _ _
  have hwn : (BitVec.ofNat 32 w.val).toNat = w.val := by
    rw [BitVec.toNat_ofNat]; omega
  show (IntOp.andi (IntOp.cmpi .sge (iota .tc S64x8x16x128 32 [3] iota_S64x8x16x128_d3_w32 (ix4 c d h w)) lo)
      (IntOp.cmpi .slt (iota .tc S64x8x16x128 32 [3] iota_S64x8x16x128_d3_w32 (ix4 c d h w)) hi) = 1#1 → _) ↔ _
  rw [hio, mask_eq_one_iff _ _ _ (by rw [hwn]; omega) hlo hhi, hwn, and_imp]

/-! ## The four width windows side by side -/

/-- Four pieces of unit extent along the last axis: position ow of that axis reads piece ow. -/
theorem cat4_apply {α : Type} (ws : Fin 4 → (S64x8x16x1.Idx → α)) (hc : Shape.Concatenates [S64x8x16x1, S64x8x16x1, S64x8x16x1, S64x8x16x1] S64x8x16x4 3)
    (c : Fin 64) (d : Fin 8) (h : Fin 16) (ow : Fin 4) :
    concatenate S64x8x16x4 3 [⟨S64x8x16x1, ws 0⟩, ⟨S64x8x16x1, ws 1⟩, ⟨S64x8x16x1, ws 2⟩, ⟨S64x8x16x1, ws 3⟩] hc (ix4 c d h ow)
      = ws ow (ix4 c d h (0 : Fin 1)) := by
  have hi : ∀ b : Fin S64x8x16x1.rank, b.cast (rfl : S64x8x16x1.rank = S64x8x16x4.rank) ≠ (3 : Fin 4) →
      (ix4 c d h (0 : Fin 1) b).val = (ix4 c d h ow (b.cast (rfl : S64x8x16x1.rank = S64x8x16x4.rank))).val := fun b hb =>
    match b, hb with
    | ⟨0, _⟩, _ => rfl
    | ⟨1, _⟩, _ => rfl
    | ⟨2, _⟩, _ => rfl
    | ⟨3, _⟩, hb => absurd rfl hb
  match ow with
  | ⟨0, _⟩ => exact concatenate_apply_piece 3 [⟨S64x8x16x1, ws 0⟩, ⟨S64x8x16x1, ws 1⟩, ⟨S64x8x16x1, ws 2⟩, ⟨S64x8x16x1, ws 3⟩] hc _ 0 (by simp) S64x8x16x1 (ws 0) rfl rfl 0 rfl (ix4 c d h (0 : Fin 1)) hi rfl
  | ⟨1, _⟩ => exact concatenate_apply_piece 3 [⟨S64x8x16x1, ws 0⟩, ⟨S64x8x16x1, ws 1⟩, ⟨S64x8x16x1, ws 2⟩, ⟨S64x8x16x1, ws 3⟩] hc _ 1 (by simp) S64x8x16x1 (ws 1) rfl rfl 1 rfl (ix4 c d h (0 : Fin 1)) hi rfl
  | ⟨2, _⟩ => exact concatenate_apply_piece 3 [⟨S64x8x16x1, ws 0⟩, ⟨S64x8x16x1, ws 1⟩, ⟨S64x8x16x1, ws 2⟩, ⟨S64x8x16x1, ws 3⟩] hc _ 2 (by simp) S64x8x16x1 (ws 2) rfl rfl 2 rfl (ix4 c d h (0 : Fin 1)) hi rfl
  | ⟨3, _⟩ => exact concatenate_apply_piece 3 [⟨S64x8x16x1, ws 0⟩, ⟨S64x8x16x1, ws 1⟩, ⟨S64x8x16x1, ws 2⟩, ⟨S64x8x16x1, ws 3⟩] hc _ 3 (by simp) S64x8x16x1 (ws 3) rfl rfl 3 rfl (ix4 c d h (0 : Fin 1)) hi rfl

/-! ## The height pooling -/

/-- The index (c, d, ow) with row k inserted on axis 2 is (c, d, k, ow). -/
theorem lift2 (hr : S64x8x4x4.Reduces [2] S64x8x4) (c : Fin 64) (d : Fin 8) (ow : Fin 4) (k : Fin 4) :
    hr.lift (ix3 c d ow) k = ix4 c d k ow := by
  funext a
  apply Fin.ext
  match a with
  | ⟨0, _⟩ => rfl
  | ⟨1, _⟩ => rfl
  | ⟨2, _⟩ => rfl
  | ⟨3, _⟩ => rfl

/-- A height window at offset o is bounded by b exactly when the four rows o … o + 3 are. -/
theorem hwin_le_iff (v : FVec Ideal S64x8x16x4 .f32) (o : Nat) (hs : S64x8x16x4.Slices ![0, 0, o, 0] S64x8x4x4)
    (r : Fin 4 → Fin 16) (hr : ∀ hh : Fin 4, (r hh).val = o + hh.val)
    (c : Fin 64) (d : Fin 8) (ow : Fin 4) (b : EReal) :
    hwin v o hs (ix4 c d (0 : Fin 1) ow) ≤ b ↔ ∀ hh : Fin 4, v (ix4 c d (r hh) ow) ≤ b := by
  have e : hwin v o hs (ix4 c d (0 : Fin 1) ow) = _ :=
    shapeCast_apply _ shapeCasts_S64x8x4_S64x8x1x4 (ix4 c d (0 : Fin 1) ow) (ix3 c d ow) (by
      rw [Shape.rowMajor_val_three, Shape.rowMajor_val_four]; simp)
  rw [e]
  refine (maxRed_le_iff _ _ _ _ _ _).trans ?_
  refine forall_congr' fun (hh : Fin 4) => ?_
  rw [lift2 _ c d ow hh]
  have e2 : extractStridedSlice S64x8x4x4 ![0, 0, o, 0] v hs (ix4 c d hh ow) = v (ix4 c d (r hh) ow) :=
    extractStridedSlice_apply ![0, 0, o, 0] v hs (ix4 c d hh ow) (ix4 c d (r hh) ow) (fun a =>
      match a with
      | ⟨0, _⟩ => by show c.val = 0 + c.val; omega
      | ⟨1, _⟩ => by show d.val = 0 + d.val; omega
      | ⟨2, _⟩ => by show (r hh).val = o + hh.val; exact hr hh
      | ⟨3, _⟩ => by show ow.val = 0 + ow.val; omega)
  rw [e2]

/-- Four pieces of unit extent along axis 2: position oh of that axis reads piece oh. -/
theorem hcat_apply {α : Type} (ws : Fin 4 → (S64x8x1x4.Idx → α)) (hc : Shape.Concatenates [S64x8x1x4, S64x8x1x4, S64x8x1x4, S64x8x1x4] S64x8x4x4 2)
    (c : Fin 64) (d : Fin 8) (oh ow : Fin 4) :
    concatenate S64x8x4x4 2 [⟨S64x8x1x4, ws 0⟩, ⟨S64x8x1x4, ws 1⟩, ⟨S64x8x1x4, ws 2⟩, ⟨S64x8x1x4, ws 3⟩] hc (ix4 c d oh ow)
      = ws oh (ix4 c d (0 : Fin 1) ow) := by
  have hi : ∀ b : Fin S64x8x1x4.rank, b.cast (rfl : S64x8x1x4.rank = S64x8x4x4.rank) ≠ (2 : Fin 4) →
      (ix4 c d (0 : Fin 1) ow b).val = (ix4 c d oh ow (b.cast (rfl : S64x8x1x4.rank = S64x8x4x4.rank))).val := fun b hb =>
    match b, hb with
    | ⟨0, _⟩, _ => rfl
    | ⟨1, _⟩, _ => rfl
    | ⟨2, _⟩, hb => absurd rfl hb
    | ⟨3, _⟩, _ => rfl
  match oh with
  | ⟨0, _⟩ => exact concatenate_apply_piece 2 [⟨S64x8x1x4, ws 0⟩, ⟨S64x8x1x4, ws 1⟩, ⟨S64x8x1x4, ws 2⟩, ⟨S64x8x1x4, ws 3⟩] hc _ 0 (by simp) S64x8x1x4 (ws 0) rfl rfl 0 rfl (ix4 c d (0 : Fin 1) ow) hi rfl
  | ⟨1, _⟩ => exact concatenate_apply_piece 2 [⟨S64x8x1x4, ws 0⟩, ⟨S64x8x1x4, ws 1⟩, ⟨S64x8x1x4, ws 2⟩, ⟨S64x8x1x4, ws 3⟩] hc _ 1 (by simp) S64x8x1x4 (ws 1) rfl rfl 1 rfl (ix4 c d (0 : Fin 1) ow) hi rfl
  | ⟨2, _⟩ => exact concatenate_apply_piece 2 [⟨S64x8x1x4, ws 0⟩, ⟨S64x8x1x4, ws 1⟩, ⟨S64x8x1x4, ws 2⟩, ⟨S64x8x1x4, ws 3⟩] hc _ 2 (by simp) S64x8x1x4 (ws 2) rfl rfl 2 rfl (ix4 c d (0 : Fin 1) ow) hi rfl
  | ⟨3, _⟩ => exact concatenate_apply_piece 2 [⟨S64x8x1x4, ws 0⟩, ⟨S64x8x1x4, ws 1⟩, ⟨S64x8x1x4, ws 2⟩, ⟨S64x8x1x4, ws 3⟩] hc _ 3 (by simp) S64x8x1x4 (ws 3) rfl rfl 3 rfl (ix4 c d (0 : Fin 1) ow) hi rfl

/-- Entry (c, d, oh, ow) of the height pooling is bounded by b exactly when rows 4·oh … 4·oh + 3 of the operand are. -/
theorem hpool_le_iff (v : FVec Ideal S64x8x16x4 .f32) (c : Fin 64) (d : Fin 8) (oh ow : Fin 4) (b : EReal) :
    hpool v (ix4 c d oh ow) ≤ b ↔
      ∀ hh : Fin 4, v (ix4 c d ⟨(4 * oh.val + hh.val) % 16, Nat.mod_lt _ (by decide)⟩ ow) ≤ b := by
  have e : hpool v (ix4 c d oh ow) = _ :=
    hcat_apply (fun k : Fin 4 => match k with
      | ⟨0, _⟩ => hwin v 0 slices_S64x8x16x4_o0_0_0_0_S64x8x4x4
      | ⟨1, _⟩ => hwin v 4 slices_S64x8x16x4_o0_0_4_0_S64x8x4x4
      | ⟨2, _⟩ => hwin v 8 slices_S64x8x16x4_o0_0_8_0_S64x8x4x4
      | ⟨3, _⟩ => hwin v 12 slices_S64x8x16x4_o0_0_12_0_S64x8x4x4) _ c d oh ow
  rw [e]
  match oh with
  | ⟨0, _⟩ => exact hwin_le_iff v 0 _ _ (fun hh => by have := hh.isLt; show (4 * 0 + hh.val) % 16 = 0 + hh.val; omega) c d ow b
  | ⟨1, _⟩ => exact hwin_le_iff v 4 _ _ (fun hh => by have := hh.isLt; show (4 * 1 + hh.val) % 16 = 4 + hh.val; omega) c d ow b
  | ⟨2, _⟩ => exact hwin_le_iff v 8 _ _ (fun hh => by have := hh.isLt; show (4 * 2 + hh.val) % 16 = 8 + hh.val; omega) c d ow b
  | ⟨3, _⟩ => exact hwin_le_iff v 12 _ _ (fun hh => by have := hh.isLt; show (4 * 3 + hh.val) % 16 = 12 + hh.val; omega) c d ow b

/-! ## The depth pooling -/

/-- The index (c, oh, ow) with row k inserted on axis 1 is (c, k, oh, ow). -/
theorem lift1 (hr : S64x2x4x4.Reduces [1] S64x4x4) (c : Fin 64) (oh ow : Fin 4) (k : Fin 2) :
    hr.lift (ix3 c oh ow) k = ix4 c k oh ow := by
  funext a
  apply Fin.ext
  match a with
  | ⟨0, _⟩ => rfl
  | ⟨1, _⟩ => rfl
  | ⟨2, _⟩ => rfl
  | ⟨3, _⟩ => rfl

/-- A depth window at offset o is bounded by b exactly when the two rows o, o + 1 are. -/
theorem dwin_le_iff (v : FVec Ideal S64x8x4x4 .f32) (o : Nat) (hs : S64x8x4x4.Slices ![0, o, 0, 0] S64x2x4x4)
    (r : Fin 2 → Fin 8) (hr : ∀ dd : Fin 2, (r dd).val = o + dd.val)
    (c : Fin 64) (oh ow : Fin 4) (b : EReal) :
    dwin v o hs (ix4 c (0 : Fin 1) oh ow) ≤ b ↔ ∀ dd : Fin 2, v (ix4 c (r dd) oh ow) ≤ b := by
  have e : dwin v o hs (ix4 c (0 : Fin 1) oh ow) = _ :=
    shapeCast_apply _ shapeCasts_S64x4x4_S64x1x4x4 (ix4 c (0 : Fin 1) oh ow) (ix3 c oh ow) (by
      rw [Shape.rowMajor_val_three, Shape.rowMajor_val_four]; simp)
  rw [e]
  refine (maxRed_le_iff _ _ _ _ _ _).trans ?_
  refine forall_congr' fun (dd : Fin 2) => ?_
  rw [lift1 _ c oh ow dd]
  have e2 : extractStridedSlice S64x2x4x4 ![0, o, 0, 0] v hs (ix4 c dd oh ow) = v (ix4 c (r dd) oh ow) :=
    extractStridedSlice_apply ![0, o, 0, 0] v hs (ix4 c dd oh ow) (ix4 c (r dd) oh ow) (fun a =>
      match a with
      | ⟨0, _⟩ => by show c.val = 0 + c.val; omega
      | ⟨1, _⟩ => by show (r dd).val = o + dd.val; exact hr dd
      | ⟨2, _⟩ => by show oh.val = 0 + oh.val; omega
      | ⟨3, _⟩ => by show ow.val = 0 + ow.val; omega)
  rw [e2]

/-- Four pieces of unit extent along axis 1: position od of that axis reads piece od. -/
theorem dcat_apply {α : Type} (ws : Fin 4 → (S64x1x4x4.Idx → α)) (hc : Shape.Concatenates [S64x1x4x4, S64x1x4x4, S64x1x4x4, S64x1x4x4] S64x4x4x4 1)
    (c : Fin 64) (od oh ow : Fin 4) :
    concatenate S64x4x4x4 1 [⟨S64x1x4x4, ws 0⟩, ⟨S64x1x4x4, ws 1⟩, ⟨S64x1x4x4, ws 2⟩, ⟨S64x1x4x4, ws 3⟩] hc (ix4 c od oh ow)
      = ws od (ix4 c (0 : Fin 1) oh ow) := by
  have hi : ∀ b : Fin S64x1x4x4.rank, b.cast (rfl : S64x1x4x4.rank = S64x4x4x4.rank) ≠ (1 : Fin 4) →
      (ix4 c (0 : Fin 1) oh ow b).val = (ix4 c od oh ow (b.cast (rfl : S64x1x4x4.rank = S64x4x4x4.rank))).val := fun b hb =>
    match b, hb with
    | ⟨0, _⟩, _ => rfl
    | ⟨1, _⟩, hb => absurd rfl hb
    | ⟨2, _⟩, _ => rfl
    | ⟨3, _⟩, _ => rfl
  match od with
  | ⟨0, _⟩ => exact concatenate_apply_piece 1 [⟨S64x1x4x4, ws 0⟩, ⟨S64x1x4x4, ws 1⟩, ⟨S64x1x4x4, ws 2⟩, ⟨S64x1x4x4, ws 3⟩] hc _ 0 (by simp) S64x1x4x4 (ws 0) rfl rfl 0 rfl (ix4 c (0 : Fin 1) oh ow) hi rfl
  | ⟨1, _⟩ => exact concatenate_apply_piece 1 [⟨S64x1x4x4, ws 0⟩, ⟨S64x1x4x4, ws 1⟩, ⟨S64x1x4x4, ws 2⟩, ⟨S64x1x4x4, ws 3⟩] hc _ 1 (by simp) S64x1x4x4 (ws 1) rfl rfl 1 rfl (ix4 c (0 : Fin 1) oh ow) hi rfl
  | ⟨2, _⟩ => exact concatenate_apply_piece 1 [⟨S64x1x4x4, ws 0⟩, ⟨S64x1x4x4, ws 1⟩, ⟨S64x1x4x4, ws 2⟩, ⟨S64x1x4x4, ws 3⟩] hc _ 2 (by simp) S64x1x4x4 (ws 2) rfl rfl 2 rfl (ix4 c (0 : Fin 1) oh ow) hi rfl
  | ⟨3, _⟩ => exact concatenate_apply_piece 1 [⟨S64x1x4x4, ws 0⟩, ⟨S64x1x4x4, ws 1⟩, ⟨S64x1x4x4, ws 2⟩, ⟨S64x1x4x4, ws 3⟩] hc _ 3 (by simp) S64x1x4x4 (ws 3) rfl rfl 3 rfl (ix4 c (0 : Fin 1) oh ow) hi rfl

/-- Entry (c, od, oh, ow) of the depth pooling is bounded by b exactly when rows 2·od, 2·od + 1 of the operand are. -/
theorem dpool_le_iff (v : FVec Ideal S64x8x4x4 .f32) (c : Fin 64) (od oh ow : Fin 4) (b : EReal) :
    dpool v (ix4 c od oh ow) ≤ b ↔
      ∀ dd : Fin 2, v (ix4 c ⟨(2 * od.val + dd.val) % 8, Nat.mod_lt _ (by decide)⟩ oh ow) ≤ b := by
  have e : dpool v (ix4 c od oh ow) = _ :=
    dcat_apply (fun k : Fin 4 => match k with
      | ⟨0, _⟩ => dwin v 0 slices_S64x8x4x4_o0_0_0_0_S64x2x4x4
      | ⟨1, _⟩ => dwin v 2 slices_S64x8x4x4_o0_2_0_0_S64x2x4x4
      | ⟨2, _⟩ => dwin v 4 slices_S64x8x4x4_o0_4_0_0_S64x2x4x4
      | ⟨3, _⟩ => dwin v 6 slices_S64x8x4x4_o0_6_0_0_S64x2x4x4) _ c od oh ow
  rw [e]
  match od with
  | ⟨0, _⟩ => exact dwin_le_iff v 0 _ _ (fun dd => by have := dd.isLt; show (2 * 0 + dd.val) % 8 = 0 + dd.val; omega) c oh ow b
  | ⟨1, _⟩ => exact dwin_le_iff v 2 _ _ (fun dd => by have := dd.isLt; show (2 * 1 + dd.val) % 8 = 2 + dd.val; omega) c oh ow b
  | ⟨2, _⟩ => exact dwin_le_iff v 4 _ _ (fun dd => by have := dd.isLt; show (2 * 2 + dd.val) % 8 = 4 + dd.val; omega) c oh ow b
  | ⟨3, _⟩ => exact dwin_le_iff v 6 _ _ (fun dd => by have := dd.isLt; show (2 * 3 + dd.val) % 8 = 6 + dd.val; omega) c oh ow b

/-! ## Assembly -/

/-- The width start is at most 112, so adding an offset of at most 16 does not wrap. -/
theorem toNat_add_lit (x1 : BitVec 32) (hx : x1.toNat ≤ 112) (k : Nat) (hk : k ≤ 16) :
    (x1 + BitVec.ofNat 32 k).toNat = x1.toNat + k := by
  rw [BitVec.toNat_add, BitVec.toNat_ofNat]; omega

/-- The lanes of [L, L + 4), when they fit below 128, are the four lanes L + ww read modulo 128. -/
theorem window_forall (P : Fin 128 → Prop) (L : Nat) (hL : L + 4 ≤ 128) :
    (∀ w : Fin 128, L ≤ w.val → w.val < L + 4 → P w) ↔
      ∀ ww : Fin 4, P ⟨(L + ww.val) % 128, Nat.mod_lt _ (by decide)⟩ := by
  constructor
  · intro H ww
    have := ww.isLt
    exact H _ (by show L ≤ (L + ww.val) % 128; omega) (by show (L + ww.val) % 128 < L + 4; omega)
  · intro H w h1 h2
    have h3 : P ⟨(L + (w.val - L)) % 128, Nat.mod_lt _ (by decide)⟩ := H ⟨w.val - L, by omega⟩
    have e : (⟨(L + (w.val - L)) % 128, Nat.mod_lt _ (by decide)⟩ : Fin 128) = w :=
      Fin.ext (by have := w.isLt; show (L + (w.val - L)) % 128 = w.val; omega)
    rw [e] at h3
    exact h3

/-- Width window number k/4 of the body is bounded by b exactly when the four crop values on lanes x1 + k + ww are. -/
theorem win_window (crop : Vec Ideal S64x8x16x128 .f32) (x1 : BitVec 32) (hx : x1.toNat ≤ 112) (k : Nat) (hk : k ≤ 12)
    (c : Fin 64) (D : Fin 8) (H : Fin 16) (b : EReal) :
    win (F := Ideal) crop (x1 + BitVec.ofNat 32 k) (x1 + BitVec.ofNat 32 (k + 4)) (ix4 c D H (0 : Fin 1)) ≤ b ↔
      ∀ ww : Fin 4, crop (ix4 c D H ⟨(x1.toNat + k + ww.val) % 128, Nat.mod_lt _ (by decide)⟩) ≤ b := by
  have hlo : (x1 + BitVec.ofNat 32 k).toNat = x1.toNat + k := toNat_add_lit x1 hx k (by omega)
  have hhi : (x1 + BitVec.ofNat 32 (k + 4)).toNat = x1.toNat + k + 4 := by
    rw [toNat_add_lit x1 hx (k + 4) (by omega)]; omega
  rw [win_le_iff crop _ _ (by rw [hlo]; omega) (by rw [hhi]; omega) c D H b, hlo, hhi]
  exact window_forall (fun w => crop (ix4 c D H w) ≤ b) (x1.toNat + k) (by omega)

/-- At the ideal instance, with the width start at most 112, an extended real bounds entry (c, od, oh, ow) of the stored
    block exactly when it bounds every crop value of window (od, oh, ow). -/
theorem bodyVal_le_iff (crop : Vec Ideal S64x8x16x128 .f32) (x1 : BitVec 32) (hx : x1.toNat ≤ 112)
    (c : Fin 64) (od oh ow : Fin 4) (b : EReal) :
    bodyVal (F := Ideal) crop x1 (ix5 (0 : Fin 1) c od oh ow) ≤ b ↔
      ∀ (dd : Fin 2) (hh : Fin 4) (ww : Fin 4),
        cropAt crop c (2 * od.val + dd.val) (4 * oh.val + hh.val) (x1.toNat + 4 * ow.val + ww.val) ≤ b := by
  rw [bodyVal_eq_stages]
  rw [shapeCast_apply _ shapeCasts_S64x4x4x4_S1x64x4x4x4 (ix5 (0 : Fin 1) c od oh ow) (ix4 c od oh ow) (by
    rw [Shape.rowMajor_val_four, Shape.rowMajor_val_five]; simp)]
  rw [dpool_le_iff]
  refine forall_congr' fun dd => ?_
  rw [hpool_le_iff]
  refine forall_congr' fun hh => ?_
  unfold cropAt
  have e : cat4 (win crop (x1 + 0#32) (x1 + 4#32)) (win crop (x1 + 4#32) (x1 + 8#32))
        (win crop (x1 + 8#32) (x1 + 12#32)) (win crop (x1 + 12#32) (x1 + 16#32))
        (ix4 c ⟨(2 * od.val + dd.val) % 8, Nat.mod_lt _ (by decide)⟩ ⟨(4 * oh.val + hh.val) % 16, Nat.mod_lt _ (by decide)⟩ ow) = _ :=
    cat4_apply (fun k : Fin 4 => match k with
      | ⟨0, _⟩ => win (F := Ideal) crop (x1 + 0#32) (x1 + 4#32)
      | ⟨1, _⟩ => win (F := Ideal) crop (x1 + 4#32) (x1 + 8#32)
      | ⟨2, _⟩ => win (F := Ideal) crop (x1 + 8#32) (x1 + 12#32)
      | ⟨3, _⟩ => win (F := Ideal) crop (x1 + 12#32) (x1 + 16#32)) _ c _ _ ow
  rw [e]
  clear e
  obtain ⟨k, hk⟩ := ow
  match k, hk with
  | 0, _ => exact win_window crop x1 hx 0 (by omega) c _ _ b
  | 1, _ => exact win_window crop x1 hx 4 (by omega) c _ _ b
  | 2, _ => exact win_window crop x1 hx 8 (by omega) c _ _ b
  | 3, _ => exact win_window crop x1 hx 12 (by omega) c _ _ b
  | n + 4, h => exact absurd h (by omega)

end Cert.KernelIdeal.Body

end
-- ==== Proof.Piece.lean ====
/-
  What the kernel body leaves in its output block, as the body's value function of what it read.

  At a grid point the body reads the depth and height starts z1, y1, copies the 64 x 8 x 16 x 128 slab of the
  (reshaped) feature array that starts at (0, z1, y1, 0) into its scratch buffer, waits for the copy, loads the whole
  scratch buffer, reads the width start x1 and stores ONE value over its whole output block. A load of a whole buffer
  after one whole-buffer delivery reads what was delivered, and a single store over the whole block leaves its
  payload; so the block ends at the body's value function of the slab and of x1.
-/
import proofs.«408509_j90469191123539_3_alg».proof.Proof.KernelIdealFrame
import proofs.«408509_j90469191123539_3_alg».proof.Proof.Body

set_option maxRecDepth 16384

noncomputable section

namespace Cert.KernelIdeal.Piece

open Cert.KernelIdeal Cert.KernelIdeal.Gen Cert.KernelIdeal.GenP Cert.KernelIdeal.Body
open Idealize.ShloMosaic Idealize.ShloMosaic.TcCoe Idealize.ShloMosaic.Tactic Idealize.SL.Sem

variable {F : FTy → Type} [FloatOps F] [Named F]

theorem zero4 : (![0, 0, 0, 0] : Fin 4 → ℕ) = fun _ => 0 := by funext a; fin_cases a <;> rfl
theorem zero5 : (![0, 0, 0, 0, 0] : Fin 5 → ℕ) = fun _ => 0 := by funext a; fin_cases a <;> rfl

/-- A load of a whole buffer after ONE delivery over the whole buffer reads what was delivered. -/
theorem readCov_whole {Val : EltTy → Type} [∀ e, Nonempty (Val e)] {sg : RefSig} {κ : Kind} {sp : Space} {S : Shape} {e : EltTy}
    (v : View sg κ sp S e) (w : S.Idx → Val e) {off : Fin S.rank → ℕ} (h : off = fun _ => 0)
    (inb : ∀ a, off a + S.size a ≤ S.size a) :
    v.readCov [(⟨Rect.whole S, w⟩ : View.Piece Val S e)] (Rect.unit off S.size inb).toLoadRect = w := by
  subst h; exact View.readCov_unit_zero v rfl _ w

/-- The slab the body copies in: the feature array, as the region finds it, read through the rectangle of extent
    64 x 8 x 16 x 128 at offsets (0, v1, v3, 0). -/
def slab (c : Dev nD) (fh0 : HbBuf0 (F := F) c hbM0_0) (v1 v3 : BitVec 32) (hw : k0_chk1 v1 v3) : Vec F S64x8x16x128 .f32 :=
  View.read (Elt F) ((Memref.whole main_v0 : Memref sig .tc .hbm S64x64x128x128 .f32).slice
    (Rect.unit (s := S64x64x128x128) (k0_off2 v1 v3) S64x8x16x128.size (k0_off2_inb v1 v3 hw)) (fun _ => rfl)).view fh0

/-- The output block after the body: the body's value of the slab and of the width start it read. -/
theorem out0_eq (c : Dev nD) (i : grid0.Coords) (arg5 : Memref sig .tc .vmem S1x64x4x4x4 .f32) (harg5 : arg5.IsWhole) (arg6 : Memref sig .tc .vmem S64x8x16x128 .f32) (harg6 : arg6.IsWhole)
    (xt0 : TbBuf0 (F := F) c tbM0_0) (xt1 : TbBuf0 (F := F) c tbM0_1) (xt2 : TbBuf0 (F := F) c tbM0_2) (fh0 : HbBuf0 (F := F) c hbM0_0) (k0_hw1 : k0_chk1 (tbM0_0.view.readAt (Elt F) (Rect.unit (s := S128) (k0_off1 i) S1.size (k0_off1_inb i)).toLoadRect xt0 (Shape.Idx.first (numel1_S1.symm ▸ Nat.one_pos))) (tbM0_1.view.readAt (Elt F) (Rect.unit (s := S128) (k0_off1 i) S1.size (k0_off1_inb i)).toLoadRect xt1 (Shape.Idx.first (numel1_S1.symm ▸ Nat.one_pos)))) :
    out0_A_0 c i arg5 harg5 arg6 harg6 xt0 xt1 xt2 fh0 k0_hw1
      = bodyVal (slab c fh0 _ _ k0_hw1)
          (tbM0_2.view.readAt (Elt F) (Rect.unit (s := S128) (k0_off3 i) S1.size (k0_off3_inb i)).toLoadRect xt2 (Shape.Idx.first (numel1_S1.symm ▸ Nat.one_pos))) := by
  unfold out0_A_0
  rw [View.read_writes_eq_canon _ _ _ (cover0_A_0 c i arg5 harg5 arg6 harg6 xt0 xt1 xt2 fh0 k0_hw1)]
  unfold kernelRun0_A
  dsimp only
  sl_unfold_words
  rw [View.canon_unit_zero zero5]
  simp only [readCov_whole (S := S64x8x16x128) _ _ zero4, ReadAs.apply_same]
  unfold bodyVal slab
  rfl

end Cert.KernelIdeal.Piece

end
-- ==== Proof.KernelWin.lean ====
/-
  The kernel's one output window and the slab it copies, read at an index.

  The grid has 128 points; at point t the output window's block is row t of the result array [128, 64, 4, 4, 4]
  (block extent [1, 64, 4, 4, 4], index map t ↦ (t, 0, 0, 0, 0)), so entry y of the block is entry
  (t, y1, y2, y3, y4) of the array, every array index lies in the block of the point its first coordinate names, and
  the 128 blocks tile the array.

  The feature array reaches the region reshaped from [1, 64, 64, 128, 128] to [64, 64, 128, 128], which keeps the
  last four coordinates. The slab of extent 64 x 8 x 16 x 128 at offsets (0, z, y, 0) therefore holds, at (c, d, h, w),
  the feature value of channel c at depth z + d, height y + h, width w.
-/
import proofs.«408509_j90469191123539_3_alg».proof.Proof.KernelIdealFrame
import proofs.«408509_j90469191123539_3_alg».proof.Proof.Piece
import proofs.«408509_j90469191123539_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KWin

open Cert.KernelIdeal Cert.KernelIdeal.Gen Cert.KernelIdeal.GenP Cert.KernelIdeal.Body Cert.KernelIdeal.Piece Cert.RoiPool
open Idealize.ShloMosaic Idealize.ShloMosaic.TcCoe Idealize.SL.Sem Idealize.ShloMosaic.ValueIdx Idealize.ShloMosaic.StableHlo
open Idealize.ShloMosaic.Pipeline (Dat)

section Window
variable {F : FTy → Type} [FloatOps F] [Named F]

/-- The output window's block index at point t, as a function of the five axes. -/
abbrev idx0 (a : (pcfg0 (F := F)).Adm) (t : Fin (cfg0 a).N) : Fin 5 → ℕ := ((cfg0 a).win 0).index t

/-- It is (t, 0, 0, 0, 0), whatever the tables hold. -/
theorem idx0_eq (a : (pcfg0 (F := F)).Adm) : ∀ t : Fin (cfg0 a).N, idx0 a t = ![t.val, 0, 0, 0, 0] :=
  (by decide +kernel : ∀ t : Fin grid0.N, cc0_transform_1 (grid0.coords t) = ![t.val, 0, 0, 0, 0])

/-- The grid's one coordinate at point t is t. -/
theorem coords0 : ∀ t : Fin grid0.N, ((grid0.coords t) 0).val = t.val := by decide +kernel

/-- Entry y of point t's block sits at (t, y1, y2, y3, y4) in the array. -/
theorem emb_blk (a : (pcfg0 (F := F)).Adm) (t : Fin (cfg0 a).N) (y : S1x64x4x4x4.Idx) :
    (((cfg0 a).win 0).blk t).view.emb y = ix5 (⟨t.val, t.isLt⟩ : Fin 128) (y 1) (y 2) (y 3) (y 4) := by
  have e0 : idx0 a t (0 : Fin 5) = t.val := congrFun (idx0_eq a t) 0
  have e1 : idx0 a t (1 : Fin 5) = 0 := congrFun (idx0_eq a t) 1
  have e2 : idx0 a t (2 : Fin 5) = 0 := congrFun (idx0_eq a t) 2
  have e3 : idx0 a t (3 : Fin 5) = 0 := congrFun (idx0_eq a t) 3
  have e4 : idx0 a t (4 : Fin 5) = 0 := congrFun (idx0_eq a t) 4
  funext b; apply Fin.ext
  match b with
  | ⟨0, _⟩ => show idx0 a t (0 : Fin 5) * 1 + 1 * (y 0).val = t.val; have h0 : (y 0).val < 1 := (y 0).isLt; omega
  | ⟨1, _⟩ => show idx0 a t (1 : Fin 5) * 64 + 1 * (y 1).val = (y 1).val; omega
  | ⟨2, _⟩ => show idx0 a t (2 : Fin 5) * 4 + 1 * (y 2).val = (y 2).val; omega
  | ⟨3, _⟩ => show idx0 a t (3 : Fin 5) * 4 + 1 * (y 3).val = (y 3).val; omega
  | ⟨4, _⟩ => show idx0 a t (4 : Fin 5) * 4 + 1 * (y 4).val = (y 4).val; omega

/-- Entry y of point t's block of an array G is entry (t, y1, y2, y3, y4) of G. -/
theorem read_blk (a : (pcfg0 (F := F)).Adm) (t : Fin (cfg0 a).N) (G : FVec F S128x64x4x4x4 .f32) (y : S1x64x4x4x4.Idx) :
    (((cfg0 a).win 0).blk t).view.read (Elt F) G y = G (ix5 (⟨t.val, t.isLt⟩ : Fin 128) (y 1) (y 2) (y 3) (y 4)) := by
  show G ((((cfg0 a).win 0).blk t).view.emb y) = _
  exact congrArg G (emb_blk a t y)

/-- Every array index is in the block of the point its first coordinate names: the blocks tile the array. -/
theorem cover (a : (pcfg0 (F := F)).Adm) (i : S128x64x4x4x4.Idx) :
    ∃ t : Fin (cfg0 a).N, ((cfg0 a).win 0).flush t = true ∧ i ∈ (((cfg0 a).win 0).blk t).view.set := by
  have hi0 : (i 0).val < 128 := (i 0).isLt
  refine ⟨⟨(i 0).val, hi0⟩, flush0_0 a _, ?_⟩
  have hm := View.emb_mem_set (((cfg0 a).win 0).blk ⟨(i 0).val, hi0⟩).view (ix5 (0 : Fin 1) (i 1) (i 2) (i 3) (i 4))
  rw [emb_blk] at hm
  have hi : i = ix5 (⟨(i 0).val, hi0⟩ : Fin 128) (i 1) (i 2) (i 3) (i 4) := eq_ix5 i
  exact (congrArg (fun z => z ∈ (((cfg0 a).win 0).blk ⟨(i 0).val, hi0⟩).view.set) hi).mpr hm

end Window

section Slab
variable (m : (ℓ : Loc nD τ sig) → Buf (Elt Ideal) ℓ)

/-- The feature array as the region finds it: the launched array viewed [64, 64, 128, 128]. -/
theorem V_feat (c : Dev nD) :
    (V m c main_v0 : S64x64x128x128.Idx → Ideal .f32)
      = shapeCast S64x64x128x128 (m ((c : Thread nD τ).loc main_arg0)) shapeCasts_S1x64x64x128x128_S64x64x128x128 := by
  dsimp only [V, hostOps0]; after_results; rfl

/-- The slab's entry (c, d, h, w) is the feature value of channel c at depth v1 + d, height v3 + h, width w. -/
theorem cropAt_slab (c : Dev nD) (v1 v3 : BitVec 32) (hw : k0_chk1 v1 v3) (cc : Fin 64) (d h w : ℕ)
    (hd : d < 8) (hh : h < 16) (hw' : w < 128) :
    cropAt (slab c (V m c main_v0) v1 v3 hw) cc d h w
      = featAt (m ((c : Thread nD τ).loc main_arg0)) cc (v1.toNat + d) (v3.toNat + h) w := by
  have b1 : v1.toNat + 8 ≤ 64 := hw 1
  have b3 : v3.toNat + 16 ≤ 128 := hw 2
  unfold cropAt slab featAt
  show V m c main_v0 _ = _
  rw [V_feat]
  refine (shapeCast_apply _ _ _ (ix5 (0 : Fin 1) cc ⟨(v1.toNat + d) % 64, Nat.mod_lt _ (by decide)⟩ ⟨(v3.toNat + h) % 128, Nat.mod_lt _ (by decide)⟩ ⟨w % 128, Nat.mod_lt _ (by decide)⟩) ?_)
  rw [Shape.rowMajor_val_five, Shape.rowMajor_val_four]
  show (((0 * 64 + cc.val) * 64 + (v1.toNat + d) % 64) * 128 + (v3.toNat + h) % 128) * 128 + w % 128
    = (((0 + 1 * cc.val) * 64 + (v1.toNat + 1 * (d % 8))) * 128 + (v3.toNat + 1 * (h % 16))) * 128 + (0 + 1 * (w % 128))
  have hc : cc.val < 64 := cc.isLt
  omega

end Slab

end Cert.KernelIdeal.KWin

end
-- ==== Proof.KernelValue.lean ====
/-
  The idealized kernel's result array is the pooled array.

  At grid point r the body stores, over its whole output block, its value function of the slab it copied in (the
  feature values of every channel at depths z1 .. z1 + 7, heights y1 .. y1 + 15 and all 128 widths, with z1, y1 region r's
  depth and height starts) and of region r's width start x1. An extended real bounds entry (c, od, oh, ow) of that
  value exactly when it bounds the slab at depths 2 od + dd, heights 4 oh + hh and widths x1 + 4 ow + ww, that is, the
  feature values of window (od, oh, ow) of region r's crop: the same bounds as the pooled entry's. So what point r
  writes back is block r of the pooled array; the 128 blocks tile the result array, which therefore ends as the pooled
  array.
-/
import proofs.«408509_j90469191123539_3_alg».proof.Proof.KernelWin
import proofs.«408509_j90469191123539_3_alg».proof.Proof.HypsIdeal
import proofs.«408509_j90469191123539_3_alg».proof.Proof.Body

set_option maxRecDepth 16384

noncomputable section

namespace Cert.KernelIdeal.KValue

open Cert.KernelIdeal Cert.KernelIdeal.Gen Cert.KernelIdeal.GenP Cert.KernelIdeal.Body Cert.KernelIdeal.Piece
open Cert.KernelIdeal.KWin Cert.KernelIdeal.HypsOfPre Cert.RoiPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The feature array as launched (the program runs on one device). -/
abbrev feat : FVec Ideal SFeat .f32 := m (((0 : Dev nD) : Thread nD τ).loc main_arg0)

/-- The depth, height and width starts the body reads at a grid point, as the run spells the reads. -/
abbrev wz (i : grid0.Coords) : BitVec 32 :=
  tbM0_0.view.readAt (Elt Ideal) (Rect.unit (s := S128) (k0_off1 i) S1.size (k0_off1_inb i)).toLoadRect (tbl m 0)
    (Shape.Idx.first (numel1_S1.symm ▸ Nat.one_pos))
abbrev wy (i : grid0.Coords) : BitVec 32 :=
  tbM0_1.view.readAt (Elt Ideal) (Rect.unit (s := S128) (k0_off1 i) S1.size (k0_off1_inb i)).toLoadRect (tbl m 1)
    (Shape.Idx.first (numel1_S1.symm ▸ Nat.one_pos))
abbrev wx (i : grid0.Coords) : BitVec 32 :=
  tbM0_2.view.readAt (Elt Ideal) (Rect.unit (s := S128) (k0_off3 i) S1.size (k0_off3_inb i)).toLoadRect (tbl m 2)
    (Shape.Idx.first (numel1_S1.symm ▸ Nat.one_pos))

/-- What the body stores at point t, read at (0, c, od, oh, ow), is the pooled entry (t, c, od, oh, ow). -/
theorem bodyVal_pooled (hR : InRange (roi m)) (t : Fin grid0.N) (hw : k0_chk1 (wz m (grid0.coords t)) (wy m (grid0.coords t)))
    (cc : Fin 64) (od oh ow : Fin 4) :
    bodyVal (F := Ideal) (slab (0 : Dev nD) (V m 0 main_v0) (wz m (grid0.coords t)) (wy m (grid0.coords t)) hw) (wx m (grid0.coords t))
        (ix5 (0 : Fin 1) cc od oh ow)
      = pooledAt (feat m) (roi m) (⟨t.val, t.isLt⟩ : Fin 128) cc od oh ow := by
  have hr := hR ⟨t.val, t.isLt⟩
  have z1 : (wz m (grid0.coords t)).toNat = start (roi m) ⟨t.val, t.isLt⟩ 1 :=
    congrArg BitVec.toNat (word0 m (grid0.coords t) ⟨t.val, t.isLt⟩ (coords0 t))
  have y1 : (wy m (grid0.coords t)).toNat = start (roi m) ⟨t.val, t.isLt⟩ 2 :=
    congrArg BitVec.toNat (word1 m (grid0.coords t) ⟨t.val, t.isLt⟩ (coords0 t))
  have x1 : (wx m (grid0.coords t)).toNat = start (roi m) ⟨t.val, t.isLt⟩ 3 :=
    congrArg BitVec.toNat (word2 m (grid0.coords t) ⟨t.val, t.isLt⟩ (coords0 t))
  have hx : (wx m (grid0.coords t)).toNat ≤ 112 := x1 ▸ hr.2.2
  have hod : od.val < 4 := od.isLt
  have hoh : oh.val < 4 := oh.isLt
  have how : ow.val < 4 := ow.isLt
  apply eq_of_le_iff
  intro b
  rw [pooledAt_le_iff, bodyVal_le_iff _ _ hx cc od oh ow b]
  have key : ∀ (dd : Fin 2) (hh : Fin 4) (ww : Fin 4),
      cropAt (slab (0 : Dev nD) (V m 0 main_v0) (wz m (grid0.coords t)) (wy m (grid0.coords t)) hw) cc
          (2 * od.val + dd.val) (4 * oh.val + hh.val) ((wx m (grid0.coords t)).toNat + 4 * ow.val + ww.val)
        = featAt (feat m) cc (start (roi m) ⟨t.val, t.isLt⟩ 1 + 2 * od.val + dd.val)
            (start (roi m) ⟨t.val, t.isLt⟩ 2 + 4 * oh.val + hh.val) (start (roi m) ⟨t.val, t.isLt⟩ 3 + 4 * ow.val + ww.val) := by
    intro dd hh ww
    have hdd : dd.val < 2 := dd.isLt
    have hhh : hh.val < 4 := hh.isLt
    have hww : ww.val < 4 := ww.isLt
    rw [cropAt_slab m 0 _ _ hw cc _ _ _ (by omega) (by omega) (by omega), z1, y1, x1, Nat.add_assoc _ (2 * od.val), Nat.add_assoc _ (4 * oh.val)]
  simp only [key]

/-- WHAT POINT t WRITES BACK is block t of the pooled array. -/
theorem flushed_eq (hO : Ok m) (hH : Hyps m hO) (hR : InRange (roi m)) (t : Fin (cfgM m hO).N) :
    (dats m hO hH 0 (0 : Dev nD)).flushed 0 t
      = (((cfgM m hO).win 0).blk t).view.read (Elt Ideal) (pooled (feat m) (roi m)) := by
  show ((cfgM m hO).win 0).cut (grid0.coords t) ((dats m hO hH 0 0).after 0 t) = _
  rw [after0_0]
  unfold outsAt0
  refine funext fun (y : S1x64x4x4x4.Idx) => ?_
  have hy0 : (y 0).val < 1 := (y 0).isLt
  have h0 : (⟨(y 0).val, hy0⟩ : Fin 1) = (0 : Fin 1) := Fin.ext (by show (y 0).val = 0; omega)
  obtain ⟨cc, od, oh, ow, rfl⟩ : ∃ (cc : Fin 64) (od oh ow : Fin 4), y = ix5 (0 : Fin 1) cc od oh ow :=
    ⟨y 1, y 2, y 3, y 4, (eq_ix5 y).trans (congrArg (fun z : Fin 1 => ix5 z (y 1) (y 2) (y 3) (y 4)) h0)⟩
  refine Eq.trans ?_ (read_blk (adm m hO) t (pooled (feat m) (roi m)) (ix5 (0 : Fin 1) cc od oh ow)).symm
  show out0_A_0 (0 : Dev nD) (grid0.coords t) (ms0_0 m hO t) (hs0_0 m hO t) scM0_0 (Memref.isWhole_whole _)
      (tbl m 0) (tbl m 1) (tbl m 2) (V m 0 main_v0) (Hyps.c0 hH 0 t) (ix5 (0 : Fin 1) cc od oh ow) = _
  exact (congrFun (Piece.out0_eq (F := Ideal) (0 : Dev nD) (grid0.coords t) (ms0_0 m hO t) (hs0_0 m hO t) scM0_0 (Memref.isWhole_whole _)
      (tbl m 0) (tbl m 1) (tbl m 2) (V m 0 main_v0) (Hyps.c0 hH 0 t)) (ix5 (0 : Fin 1) cc od oh ow)).trans
    (bodyVal_pooled m hR t (Hyps.c0 hH 0 t) cc od oh ow)

/-- THE RESULT ARRAY after the run is the pooled array. -/
theorem final (hO : Ok m) (hH : Hyps m hO) (hR : InRange (roi m)) :
    (dats m hO hH 0 (0 : Dev nD)).arrAt 0 (cfgM m hO).N = pooled (feat m) (roi m) :=
  (dats m hO hH 0 (0 : Dev nD)).arrAt_eq_of_cover 0 (pooled (feat m) (roi m)) (fun t _ => flushed_eq m hO hH hR t) (cover (adm m hO))

/-- Under the precondition every weakly fair execution of the idealized kernel terminates, its result array the
    pooled array of the launched feature array and region table, the arguments unchanged. -/
theorem run (h : Cert.Pre_KernelIdeal m) :
    θ_run defs (onTc (τ := τ) (main (F := Ideal))) ⟨m, fun _ => 0, ρ⟩ fun r => ∀ c : Dev nD,
      r.2.mem ((c.tc : Thread nD τ).loc main_v7) = pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hp c => by
      obtain rfl : c = 0 := Subsingleton.elim _ _
      exact ⟨((hp 0).1 0).trans (final m (ok_of_pre m h) (hyps_of_pre m h _) (inRange_of_pre m h)),
        ((hp 0).2 main_arg0 (by decide : main_arg0 ∈ Pipeline.restRefs sig spec0)).trans (V_main_arg0 m 0),
        ((hp 0).2 main_arg1 (by decide : main_arg1 ∈ Pipeline.restRefs sig spec0)).trans (V_main_arg1 m 0)⟩)
    (run_main m ρ (ok_of_pre m h) (hyps_of_pre m h _))

end Cert.KernelIdeal.KValue

end
-- ==== Proof.RefValue.lean ====
/-
  The reference's result is the pooled array.

  The reference reads the three start columns of the region table, adds the axis extent to a negative start (no start
  is negative when the starts are in range), gathers for every region the 64 x 8 x 16 x 16 crop at the starts (a gather
  clamps a start so that the crop fits; starts in range are not moved), views the crop as
  64 x 4 x 2 x 4 x 4 x 4 x 4 and takes the maximum, from the bottom element, over the three window axes.
-/
import proofs.«408509_j90469191123539_3_alg».proof.Proof.Gen.ReferenceIdeal.Read
import proofs.«408509_j90469191123539_3_alg».proof.Proof.Spec
import Idealize.ShloMosaic.PureOps.Ideal.Laws
import Idealize.ShloMosaic.Lib.Pipeline.Value

noncomputable section

namespace Cert.ReferenceIdeal.RefValue

open Cert.ReferenceIdeal Cert.ReferenceIdeal.Gen Cert.RoiPool
open Idealize.ShloMosaic Idealize.ShloMosaic.ValueIdx

open Cert.ReferenceIdeal.Read

/-! ## Words: a start in range is not negative -/

/-- A word of natural value at most 2^31 - 1 is not negative, so the negative-start correction keeps it. -/
theorem sel_nonneg (w K : BitVec 32) (hw : w.toNat < 2 ^ 31) :
    Scalar.select (IntOp.cmpi .slt w 0#32) (IntOp.addi w K) w = w := by
  have hi : w.toInt = (w.toNat : Int) := BitVec.toInt_eq_toNat_of_lt (by omega)
  have h0 : IntOp.cmpi .slt w 0#32 = 0#1 := by
    unfold IntOp.cmpi
    have : w.slt 0#32 = false := by
      rw [BitVec.slt_eq_decide, hi]
      simp
    simp only [this]
    rfl
  rw [h0, select_zero]

/-- Such a word read as a signed integer is its natural value. -/
theorem toInt_toNat_small (w : BitVec 32) (hw : w.toNat < 2 ^ 31) : w.toInt.toNat = w.toNat := by
  rw [BitVec.toInt_eq_toNat_of_lt (by omega)]
  simp

/-! ## The three start columns, read at a region -/

/-- The start of a crop after the negative-start correction, as the reference computes it from a table entry. -/
def corr (w K : BitVec 32) : BitVec 32 := Scalar.select (IntOp.cmpi .slt w 0#32) (IntOp.addi w K) w

/-- Column 1 of row r of the region table, through the leading-unit-axis reshape, the column slice and its flattening. -/
theorem idx_col1 (r : Fin 128) : idx_main_v1 (idx_main_v2 (idx_main_v3 (ix1 r))) = ix3 (0 : Fin 1) r (1 : Fin 7) := by
  funext a
  match a with
  | ⟨0, _⟩ => rfl
  | ⟨1, _⟩ =>
    refine Fin.ext ?_
    show (r.val / 1 * 7 + (1 + 0)) / 7 % 128 = r.val
    have := r.isLt
    omega
  | ⟨2, _⟩ =>
    refine Fin.ext ?_
    show (r.val / 1 * 7 + (1 + 0)) % 7 = 1
    omega

/-- The same for column 2. -/
theorem idx_col2 (r : Fin 128) : idx_main_v1 (idx_main_v4 (idx_main_v5 (ix1 r))) = ix3 (0 : Fin 1) r (2 : Fin 7) := by
  funext a
  match a with
  | ⟨0, _⟩ => rfl
  | ⟨1, _⟩ =>
    refine Fin.ext ?_
    show (r.val / 1 * 7 + (2 + 0)) / 7 % 128 = r.val
    have := r.isLt
    omega
  | ⟨2, _⟩ =>
    refine Fin.ext ?_
    show (r.val / 1 * 7 + (2 + 0)) % 7 = 2
    omega

/-- The same for column 3. -/
theorem idx_col3 (r : Fin 128) : idx_main_v1 (idx_main_v6 (idx_main_v7 (ix1 r))) = ix3 (0 : Fin 1) r (3 : Fin 7) := by
  funext a
  match a with
  | ⟨0, _⟩ => rfl
  | ⟨1, _⟩ =>
    refine Fin.ext ?_
    show (r.val / 1 * 7 + (3 + 0)) / 7 % 128 = r.val
    have := r.isLt
    omega
  | ⟨2, _⟩ =>
    refine Fin.ext ?_
    show (r.val / 1 * 7 + (3 + 0)) % 7 = 3
    omega

/-- The corrected depth start of region r (a negative start has the depth extent 64 added). -/
theorem v15_apply (roi : IVec SRoi 32) (r : Fin 128) :
    val_main_v15 (F := Ideal) roi (ix1 r) = corr (roi (ix3 (0 : Fin 1) r (1 : Fin 7))) 64#32 := by
  rw [val_main_v15_apply, val_main_v12_apply, val_main_v14_apply, val_main_v3_apply, val_main_v2_apply, val_main_v1_apply,
    val_main_v11_apply, val_main_v13_apply, val_main_c_4_apply, val_main_c_5_apply, idx_col1]
  rfl

/-- The corrected height start of region r (a negative start has the height extent 128 added). -/
theorem v20_apply (roi : IVec SRoi 32) (r : Fin 128) :
    val_main_v20 (F := Ideal) roi (ix1 r) = corr (roi (ix3 (0 : Fin 1) r (2 : Fin 7))) 128#32 := by
  rw [val_main_v20_apply, val_main_v17_apply, val_main_v19_apply, val_main_v5_apply, val_main_v4_apply, val_main_v1_apply,
    val_main_v16_apply, val_main_v18_apply, val_main_c_6_apply, val_main_c_7_apply, idx_col2]
  rfl

/-- The corrected width start of region r (a negative start has the width extent 128 added). -/
theorem v25_apply (roi : IVec SRoi 32) (r : Fin 128) :
    val_main_v25 (F := Ideal) roi (ix1 r) = corr (roi (ix3 (0 : Fin 1) r (3 : Fin 7))) 128#32 := by
  rw [val_main_v25_apply, val_main_v22_apply, val_main_v24_apply, val_main_v7_apply, val_main_v6_apply, val_main_v1_apply,
    val_main_v21_apply, val_main_v23_apply, val_main_c_8_apply, val_main_c_9_apply, idx_col3]
  rfl

/-- A start vector viewed as a column reads row r at r. -/
theorem idx_bc27 (r : Fin 128) : idx_main_v27 (ix2 r (0 : Fin 1)) = ix1 r := by
  funext a
  match a with
  | ⟨0, _⟩ => rfl

/-- The same for the height starts. -/
theorem idx_bc28 (r : Fin 128) : idx_main_v28 (ix2 r (0 : Fin 1)) = ix1 r := by
  funext a
  match a with
  | ⟨0, _⟩ => rfl

/-- The same for the width starts. -/
theorem idx_bc29 (r : Fin 128) : idx_main_v29 (ix2 r (0 : Fin 1)) = ix1 r := by
  funext a
  match a with
  | ⟨0, _⟩ => rfl

/-- Column 1 of the start table: the corrected depth start of region r. -/
theorem v30_col1 (roi : IVec SRoi 32) (r : Fin 128) :
    val_main_v30 (F := Ideal) roi (ix2 r (1 : Fin 4)) = corr (roi (ix3 (0 : Fin 1) r (1 : Fin 7))) 64#32 := by
  unfold val_main_v30
  refine (concatenate_apply_piece (1 : Fin S128x4.rank)
    [⟨S128x1, (val_main_v26 (F := Ideal))⟩, ⟨S128x1, (val_main_v27 (F := Ideal) roi)⟩, ⟨S128x1, (val_main_v28 (F := Ideal) roi)⟩, ⟨S128x1, (val_main_v29 (F := Ideal) roi)⟩]
    concatenates_S128x1_S128x1_S128x1_S128x1_S128x4_d1 (ix2 r (1 : Fin 4))
    1 (Nat.lt_of_sub_eq_succ rfl) S128x1 (val_main_v27 (F := Ideal) roi) rfl rfl 1 rfl (ix2 r (0 : Fin 1)) ?_ ?_).trans ?_
  · intro b hb
    match b with
    | ⟨0, _⟩ => rfl
    | ⟨1, _⟩ => exact absurd rfl hb
  · rfl
  · rw [val_main_v27_apply, idx_bc27, v15_apply]

/-- Column 2 of the start table: the corrected height start of region r. -/
theorem v30_col2 (roi : IVec SRoi 32) (r : Fin 128) :
    val_main_v30 (F := Ideal) roi (ix2 r (2 : Fin 4)) = corr (roi (ix3 (0 : Fin 1) r (2 : Fin 7))) 128#32 := by
  unfold val_main_v30
  refine (concatenate_apply_piece (1 : Fin S128x4.rank)
    [⟨S128x1, (val_main_v26 (F := Ideal))⟩, ⟨S128x1, (val_main_v27 (F := Ideal) roi)⟩, ⟨S128x1, (val_main_v28 (F := Ideal) roi)⟩, ⟨S128x1, (val_main_v29 (F := Ideal) roi)⟩]
    concatenates_S128x1_S128x1_S128x1_S128x1_S128x4_d1 (ix2 r (2 : Fin 4))
    2 (Nat.lt_of_sub_eq_succ rfl) S128x1 (val_main_v28 (F := Ideal) roi) rfl rfl 2 rfl (ix2 r (0 : Fin 1)) ?_ ?_).trans ?_
  · intro b hb
    match b with
    | ⟨0, _⟩ => rfl
    | ⟨1, _⟩ => exact absurd rfl hb
  · rfl
  · rw [val_main_v28_apply, idx_bc28, v20_apply]

/-- Column 3 of the start table: the corrected width start of region r. -/
theorem v30_col3 (roi : IVec SRoi 32) (r : Fin 128) :
    val_main_v30 (F := Ideal) roi (ix2 r (3 : Fin 4)) = corr (roi (ix3 (0 : Fin 1) r (3 : Fin 7))) 128#32 := by
  unfold val_main_v30
  refine (concatenate_apply_piece (1 : Fin S128x4.rank)
    [⟨S128x1, (val_main_v26 (F := Ideal))⟩, ⟨S128x1, (val_main_v27 (F := Ideal) roi)⟩, ⟨S128x1, (val_main_v28 (F := Ideal) roi)⟩, ⟨S128x1, (val_main_v29 (F := Ideal) roi)⟩]
    concatenates_S128x1_S128x1_S128x1_S128x1_S128x4_d1 (ix2 r (3 : Fin 4))
    3 (Nat.lt_of_sub_eq_succ rfl) S128x1 (val_main_v29 (F := Ideal) roi) rfl rfl 3 rfl (ix2 r (0 : Fin 1)) ?_ ?_).trans ?_
  · intro b hb
    match b with
    | ⟨0, _⟩ => rfl
    | ⟨1, _⟩ => exact absurd rfl hb
  · rfl
  · rw [val_main_v29_apply, idx_bc29, v25_apply]

/-! ## The crop: the gather read at an index -/

/-- The reference's gather: offsets on result axes 1 to 4, starts for operand axes 0 to 3 read along axis 1 of the start table. -/
abbrev GD : GatherDims S64x64x128x128 S128x4 S128x64x8x16x16 := gather_S64x64x128x128_S128x4_S128x64x8x16x16_1234_n_n_n_0123_1_6481616

/-- The gather read at (r, c, dz, hy, wx): the operand at channel c (the channel slice is the whole axis, so its start is
    clamped to 0) and, on each spatial axis, the start read signed from row r of the start table, clamped so that the
    crop fits, plus the offset. -/
theorem gather_apply {α : Type} (y : S64x64x128x128.Idx → α) (idx : IVec S128x4 32) (r : Fin 128) (c : Fin 64) (dz : Fin 8) (hy wx : Fin 16)
    (k : S64x64x128x128.Idx)
    (h0 : (k 0).val = c.val)
    (h1 : (k 1).val = min (idx (ix2 r (1 : Fin 4))).toInt.toNat 56 + dz.val)
    (h2 : (k 2).val = min (idx (ix2 r (2 : Fin 4))).toInt.toNat 112 + hy.val)
    (h3 : (k 3).val = min (idx (ix2 r (3 : Fin 4))).toInt.toNat 112 + wx.val) :
    Host.gather GD y idx (ix5 r c dz hy wx) = y k := by
  unfold Host.gather
  refine congrArg y (funext fun a => Fin.ext ?_)
  show GD.start (ix5 r c dz hy wx) idx a + GD.batchCoord (ix5 r c dz hy wx) a + GD.offCoord (ix5 r c dz hy wx) a = (k a).val
  rw [GatherDims.batchCoord_eq_zero _ _ _ List.not_mem_nil, Nat.add_zero]
  match a with
  | ⟨0, _⟩ =>
    have ho : GD.offCoord (ix5 r c dz hy wx) (0 : Fin 4) = c.val := by
      unfold GatherDims.offCoord
      rw [dif_pos (by decide)]
      rfl
    have hs : GD.start (ix5 r c dz hy wx) idx (0 : Fin 4) = 0 := by
      unfold GatherDims.start
      rw [dif_pos (by decide)]
      exact Nat.min_zero _
    exact (congrArg₂ (· + ·) hs ho).trans ((Nat.zero_add _).trans h0.symm)
  | ⟨1, _⟩ =>
    have ho : GD.offCoord (ix5 r c dz hy wx) (1 : Fin 4) = dz.val := by
      unfold GatherDims.offCoord
      rw [dif_pos (by decide)]
      rfl
    have hs : GD.start (ix5 r c dz hy wx) idx (1 : Fin 4) = min (idx (ix2 r (1 : Fin 4))).toInt.toNat 56 := by
      unfold GatherDims.start
      rw [dif_pos (by decide)]
      have hsi : GD.siIdx (ix5 r c dz hy wx) ⟨List.idxOf (1 : Fin 4) GD.startIndexMap,
          List.idxOf_lt_length_iff.2 (by decide)⟩ = ix2 r (1 : Fin 4) := by
        funext b; refine Fin.ext ?_
        match b with
        | ⟨0, _⟩ => rfl
        | ⟨1, _⟩ => rfl
      rw [hsi]
      rfl
    exact (congrArg₂ (· + ·) hs ho).trans h1.symm
  | ⟨2, _⟩ =>
    have ho : GD.offCoord (ix5 r c dz hy wx) (2 : Fin 4) = hy.val := by
      unfold GatherDims.offCoord
      rw [dif_pos (by decide)]
      rfl
    have hs : GD.start (ix5 r c dz hy wx) idx (2 : Fin 4) = min (idx (ix2 r (2 : Fin 4))).toInt.toNat 112 := by
      unfold GatherDims.start
      rw [dif_pos (by decide)]
      have hsi : GD.siIdx (ix5 r c dz hy wx) ⟨List.idxOf (2 : Fin 4) GD.startIndexMap,
          List.idxOf_lt_length_iff.2 (by decide)⟩ = ix2 r (2 : Fin 4) := by
        funext b; refine Fin.ext ?_
        match b with
        | ⟨0, _⟩ => rfl
        | ⟨1, _⟩ => rfl
      rw [hsi]
      rfl
    exact (congrArg₂ (· + ·) hs ho).trans h2.symm
  | ⟨3, _⟩ =>
    have ho : GD.offCoord (ix5 r c dz hy wx) (3 : Fin 4) = wx.val := by
      unfold GatherDims.offCoord
      rw [dif_pos (by decide)]
      rfl
    have hs : GD.start (ix5 r c dz hy wx) idx (3 : Fin 4) = min (idx (ix2 r (3 : Fin 4))).toInt.toNat 112 := by
      unfold GatherDims.start
      rw [dif_pos (by decide)]
      have hsi : GD.siIdx (ix5 r c dz hy wx) ⟨List.idxOf (3 : Fin 4) GD.startIndexMap,
          List.idxOf_lt_length_iff.2 (by decide)⟩ = ix2 r (3 : Fin 4) := by
        funext b; refine Fin.ext ?_
        match b with
        | ⟨0, _⟩ => rfl
        | ⟨1, _⟩ => rfl
      rw [hsi]
      rfl
    exact (congrArg₂ (· + ·) hs ho).trans h3.symm

/-- A start in range, after the correction, read signed and clamped, is the table entry's natural value. -/
theorem start_clamped (w K : BitVec 32) (m : Nat) (hm : m < 2 ^ 31) (hw : w.toNat ≤ m) :
    min (corr w K).toInt.toNat m = w.toNat := by
  unfold corr
  rw [sel_nonneg w K (by omega), toInt_toNat_small w (by omega)]
  exact Nat.min_eq_left hw

/-- The crop of region r at (c, dz, hy, wx), starts in range: the feature value of channel c at the starts plus the offsets. -/
theorem v31_apply (x : FVec Ideal SFeat .f32) (roi : IVec SRoi 32) (h : InRange roi) (r : Fin 128) (c : Fin 64) (dz : Fin 8) (hy wx : Fin 16) :
    val_main_v31 (F := Ideal) x roi (ix5 r c dz hy wx)
      = featAt x c (start roi r 1 + dz.val) (start roi r 2 + hy.val) (start roi r 3 + wx.val) := by
  obtain ⟨hz, hyy, hxx⟩ := h r
  have bz := dz.isLt
  have bh := hy.isLt
  have bw := wx.isLt
  unfold val_main_v31
  refine (gather_apply (val_main_v0 (F := Ideal) x) (val_main_v30 (F := Ideal) roi) r c dz hy wx
    (ix4 c (⟨start roi r 1 + dz.val, by omega⟩ : Fin 64) (⟨start roi r 2 + hy.val, by omega⟩ : Fin 128)
      (⟨start roi r 3 + wx.val, by omega⟩ : Fin 128)) rfl ?_ ?_ ?_).trans ?_
  · rw [v30_col1, start_clamped _ _ 56 (by decide) hz]; rfl
  · rw [v30_col2, start_clamped _ _ 112 (by decide) hyy]; rfl
  · rw [v30_col3, start_clamped _ _ 112 (by decide) hxx]; rfl
  · rw [val_main_v0_apply]
    unfold featAt
    refine congrArg x (funext fun a => Fin.ext ?_)
    have bc := c.isLt
    match a with
    | ⟨0, _⟩ => rfl
    | ⟨1, _⟩ =>
      show (((c.val * 64 + (start roi r 1 + dz.val)) * 128 + (start roi r 2 + hy.val)) * 128 + (start roi r 3 + wx.val)) / 1048576 % 64 = c.val
      omega
    | ⟨2, _⟩ =>
      show (((c.val * 64 + (start roi r 1 + dz.val)) * 128 + (start roi r 2 + hy.val)) * 128 + (start roi r 3 + wx.val)) / 16384 % 64 = (start roi r 1 + dz.val) % 64
      omega
    | ⟨3, _⟩ =>
      show (((c.val * 64 + (start roi r 1 + dz.val)) * 128 + (start roi r 2 + hy.val)) * 128 + (start roi r 3 + wx.val)) / 128 % 128 = (start roi r 2 + hy.val) % 128
      omega
    | ⟨4, _⟩ =>
      show (((c.val * 64 + (start roi r 1 + dz.val)) * 128 + (start roi r 2 + hy.val)) * 128 + (start roi r 3 + wx.val)) % 128 = (start roi r 3 + wx.val) % 128
      omega

/-! ## The windowed view: rank-8 indices and the reshape read at an index -/

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun q => match q with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is ix8 of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The windowed view of the crop: entry (r, c, od, dd, oh, hh, ow, ww) is the crop's entry (r, c, 2 od + dd, 4 oh + hh, 4 ow + ww). -/
theorem v32_apply (x : FVec Ideal SFeat .f32) (roi : IVec SRoi 32) (r : Fin 128) (c : Fin 64) (od : Fin 4) (dd : Fin 2)
    (oh hh ow ww : Fin 4) :
    val_main_v32 (F := Ideal) x roi (ix8 r c od dd oh hh ow ww)
      = val_main_v31 (F := Ideal) x roi (ix5 r c (⟨2 * od.val + dd.val, by omega⟩ : Fin 8)
          (⟨4 * oh.val + hh.val, by omega⟩ : Fin 16) (⟨4 * ow.val + ww.val, by omega⟩ : Fin 16)) := by
  unfold val_main_v32
  generalize val_main_v31 (F := Ideal) x roi = y
  refine shapeCast_apply y shapeCasts_S128x64x8x16x16_S128x64x4x2x4x4x4x4 _ _ ?_
  rewrite [Shape.rowMajor_val_five, rowMajor_val_eight]
  show (((r.val * 64 + c.val) * 8 + (2 * od.val + dd.val)) * 16 + (4 * oh.val + hh.val)) * 16 + (4 * ow.val + ww.val)
    = ((((((r.val * 64 + c.val) * 4 + od.val) * 2 + dd.val) * 4 + oh.val) * 4 + hh.val) * 4 + ow.val) * 4 + ww.val
  omega

/-! ## The maximum over the three window axes -/

/-- A fold of the maximum from the bottom element is bounded exactly when every entry is. -/
theorem fold_maximumf_le_iff {ι : Type} (S : Finset ι) (f : ι → Ideal .f32) (b : Ideal .f32) :
    S.fold (FloatOps.maximumf (F := Ideal) (φ := .f32)) (FloatOps.ofBits (F := Ideal) .f32 0xFF800000#32) f ≤ b
      ↔ ∀ i ∈ S, f i ≤ b := by
  have hb : (FloatOps.ofBits (F := Ideal) .f32 0xFF800000#32 : Ideal .f32) = (⊥ : EReal) := by
    show Ideal.ofBits .f32 0xFF800000#32 = ⊥
    simp [Ideal.ofBits, Ideal.ieee]
  rw [hb]
  show Finset.fold (max : EReal → EReal → EReal) ⊥ f S ≤ b ↔ _
  rw [Finset.fold_max_le]
  simp

local notation "RD" => reducesTo_S128x64x4x2x4x4x4x4_S128x64x4x4x4_d3_5_7

/-- Dropping the three window coordinates of (r, c, od, dd, oh, hh, ow, ww) leaves (r, c, od, oh, ow). -/
theorem drop_ix8 (r : Fin 128) (c : Fin 64) (od : Fin 4) (dd : Fin 2) (oh hh ow ww : Fin 4) :
    Shape.ReducesTo.drop RD (ix8 r c od dd oh hh ow ww) = ix5 r c od oh ow := by
  funext b
  refine Fin.ext ?_
  match b with
  | ⟨0, _⟩ => exact Shape.ReducesTo.drop_apply_val_of_eq RD _ 0 0
  | ⟨1, _⟩ => exact Shape.ReducesTo.drop_apply_val_of_eq RD _ 1 1
  | ⟨2, _⟩ => exact Shape.ReducesTo.drop_apply_val_of_eq RD _ 2 2
  | ⟨3, _⟩ => exact Shape.ReducesTo.drop_apply_val_of_eq RD _ 3 4
  | ⟨4, _⟩ => exact Shape.ReducesTo.drop_apply_val_of_eq RD _ 4 6

/-- A source index that drops to (r, c, od, oh, ow) is (r, c, od, dd, oh, hh, ow, ww) for its own window coordinates. -/
theorem eq_ix8_of_drop (i : S128x64x4x2x4x4x4x4.Idx) (r : Fin 128) (c : Fin 64) (od oh ow : Fin 4)
    (hi : Shape.ReducesTo.drop RD i = ix5 r c od oh ow) :
    ∃ (dd : Fin 2) (hh ww : Fin 4), i = ix8 r c od dd oh hh ow ww := by
  refine ⟨i 3, i 5, i 7, ?_⟩
  have h0 : (i 0).val = r.val := (Shape.ReducesTo.drop_apply_val_of_eq RD i 0 0).symm.trans (congrArg (fun j => (j 0).val) hi)
  have h1 : (i 1).val = c.val := (Shape.ReducesTo.drop_apply_val_of_eq RD i 1 1).symm.trans (congrArg (fun j => (j 1).val) hi)
  have h2 : (i 2).val = od.val := (Shape.ReducesTo.drop_apply_val_of_eq RD i 2 2).symm.trans (congrArg (fun j => (j 2).val) hi)
  have h4 : (i 4).val = oh.val := (Shape.ReducesTo.drop_apply_val_of_eq RD i 3 4).symm.trans (congrArg (fun j => (j 3).val) hi)
  have h6 : (i 6).val = ow.val := (Shape.ReducesTo.drop_apply_val_of_eq RD i 4 6).symm.trans (congrArg (fun j => (j 4).val) hi)
  funext a
  refine Fin.ext ?_
  match a with
  | ⟨0, _⟩ => exact h0
  | ⟨1, _⟩ => exact h1
  | ⟨2, _⟩ => exact h2
  | ⟨3, _⟩ => rfl
  | ⟨4, _⟩ => exact h4
  | ⟨5, _⟩ => rfl
  | ⟨6, _⟩ => exact h6
  | ⟨7, _⟩ => rfl

/-- An extended real bounds the reference's entry (r, c, od, oh, ow) exactly when it bounds every value of the window. -/
theorem v33_le_iff (x : FVec Ideal SFeat .f32) (roi : IVec SRoi 32) (h : InRange roi) (r : Fin 128) (c : Fin 64) (od oh ow : Fin 4)
    (b : EReal) :
    val_main_v33 (F := Ideal) x roi (ix5 r c od oh ow) ≤ b ↔ ∀ (dd : Fin 2) (hh : Fin 4) (ww : Fin 4),
      featAt x c (start roi r 1 + 2 * od.val + dd.val) (start roi r 2 + 4 * oh.val + hh.val) (start roi r 3 + 4 * ow.val + ww.val) ≤ b := by
  have hv : ∀ (dd : Fin 2) (hh ww : Fin 4), val_main_v32 (F := Ideal) x roi (ix8 r c od dd oh hh ow ww)
      = featAt x c (start roi r 1 + 2 * od.val + dd.val) (start roi r 2 + 4 * oh.val + hh.val) (start roi r 3 + 4 * ow.val + ww.val) := by
    intro dd hh ww
    rw [v32_apply, v31_apply x roi h]
    simp only [Nat.add_assoc]
  unfold val_main_v33
  rw [Host.reduce_eq_fold, val_main_cst_apply]
  refine (fold_maximumf_le_iff _ _ b).trans ?_
  simp only [Finset.mem_filter, Finset.mem_univ, true_and]
  constructor
  · intro H dd hh ww
    rw [← hv]
    exact H _ (drop_ix8 r c od dd oh hh ow ww)
  · intro H i hi
    obtain ⟨dd, hh, ww, rfl⟩ := eq_ix8_of_drop i r c od oh ow hi
    rw [hv]
    exact H dd hh ww

/-- With every region's starts in range, the reference's last stage is the pooled array. -/
theorem ref_eq (x : FVec Ideal SFeat .f32) (roi : IVec SRoi 32) (h : InRange roi) :
    Cert.ReferenceIdeal.Read.val_main_v33 (F := Ideal) x roi = pooled x roi := by
  funext j
  obtain ⟨r, c, od, oh, ow, rfl⟩ : ∃ (r : Fin 128) (c : Fin 64) (od oh ow : Fin 4), j = ix5 r c od oh ow :=
    ⟨j 0, j 1, j 2, j 3, j 4, eq_ix5 (n0 := 128) (n1 := 64) (n2 := 4) (n3 := 4) (n4 := 4) j⟩
  rw [pooled_apply]
  exact eq_of_le_iff fun b => (v33_le_iff x roi h r c od oh ow b).trans (pooledAt_le_iff x roi r c od oh ow b).symm

end Cert.ReferenceIdeal.RefValue

end
-- ==== Proof.lean ====
/-
  A region-of-interest maximum pooling over a 3-D feature array: for each of 128 regions, the 8 x 16 x 16 crop of every
  channel at the region's start offsets is cut into 4 x 4 x 4 windows of extent 2 x 4 x 4 and each window's maximum is
  kept. The kernel copies, per region, the slab of the crop's depths and heights over ALL 128 widths, selects each
  width window by a lane mask whose fill value stands for the bottom element, and takes lane, height and depth maxima
  in turn; the reference gathers the crop and takes one maximum over the three window axes.

  Under the precondition (finite floats; each region's depth start in [0, 56], height and width starts in [0, 112]) both
  programs end with the SAME array: entry (r, c, od, oh, ow) is the least upper bound of the 32 feature values of channel
  c in window (od, oh, ow) of region r's crop. For the kernel this is read off its frame run (what each grid point
  writes back is a block of that array, and the blocks tile the result); for the reference off its run, operation by
  operation. A maximum over a finite window is characterised by its upper bounds, which is how each side is compared
  with the specification; no finiteness of the values is used. The frames of the two kernel programs need the start
  offsets in range (the slab copy must stay inside the feature array), which the precondition gives; the fill value's
  name denotes the bottom element at the ideal instance, which is the one fact `preserves` records, four times.
-/
import proofs.«408509_j90469191123539_3_alg».proof.Defs
import proofs.«408509_j90469191123539_3_alg».proof.Proof.Gen.Kernel
import proofs.«408509_j90469191123539_3_alg».proof.Proof.Gen.Kernel.Skeleton
import proofs.«408509_j90469191123539_3_alg».proof.Proof.Gen.Kernel.Launch
import proofs.«408509_j90469191123539_3_alg».proof.Proof.Gen.Kernel.Points
import proofs.«408509_j90469191123539_3_alg».proof.Proof.KernelFrame
import proofs.«408509_j90469191123539_3_alg».proof.Proof.Gen.KernelIdeal
import proofs.«408509_j90469191123539_3_alg».proof.Proof.Gen.KernelIdeal.Skeleton
import proofs.«408509_j90469191123539_3_alg».proof.Proof.Gen.KernelIdeal.Launch
import proofs.«408509_j90469191123539_3_alg».proof.Proof.Gen.KernelIdeal.Points
import proofs.«408509_j90469191123539_3_alg».proof.Proof.KernelIdealFrame
import proofs.«408509_j90469191123539_3_alg».proof.Proof.Gen.ReferenceIdeal
import proofs.«408509_j90469191123539_3_alg».proof.Proof.Gen.ReferenceIdeal.Run
import proofs.«408509_j90469191123539_3_alg».proof.Proof.Gen.ReferenceIdeal.Read
import proofs.«408509_j90469191123539_3_alg».proof.Proof.Gen.Pre_finite_inputs
import proofs.«408509_j90469191123539_3_alg».proof.Proof.HypsBits
import proofs.«408509_j90469191123539_3_alg».proof.Proof.HypsIdeal
import proofs.«408509_j90469191123539_3_alg».proof.Proof.KernelValue
import proofs.«408509_j90469191123539_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its slab copies stay inside the feature array. -/
theorem frame_k : Cert.frame_Kernel := fun m ρ h =>
  Cert.Kernel.GenP.frame m ρ (Cert.Kernel.HypsOfPre.ok_of_pre m h) (Cert.Kernel.HypsOfPre.hyps_of_pre m h _)

/-- The idealized kernel likewise. -/
theorem frame_ki : Cert.frame_KernelIdeal := fun m ρ h =>
  Cert.KernelIdeal.GenP.frame m ρ (Cert.KernelIdeal.HypsOfPre.ok_of_pre m h) (Cert.KernelIdeal.HypsOfPre.hyps_of_pre m h _)

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four fill constants are one name, which the table gives the bottom element. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- Both programs end at the pooled array of the (agreeing) arguments. -/
theorem algebraic : Cert.algebraic_KernelIdeal_ReferenceIdeal := by
  intro m ρ m' ρ' hpre hagree
  refine ⟨fun c => Cert.RoiPool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ hpre, ?_⟩
  refine (θ_run Cert.ReferenceIdeal.defs _ _).mono (fun _ h c => ⟨?_, (h c).2⟩)
    (Cert.ReferenceIdeal.Value.run (F := Ideal) m' ρ')
  obtain rfl : c = 0 := Subsingleton.elim _ _
  rw [(h 0).1, Cert.ReferenceIdeal.Read.val_main_v33_eq, (hagree 0).1, (hagree 0).2]
  exact Cert.ReferenceIdeal.RefValue.ref_eq _ _ (Cert.KernelIdeal.HypsOfPre.inRange_of_pre m hpre)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
